-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v198) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S16384x10x100 : Shape := ⟨3, ![16384, 10, 100]⟩
abbrev S10x100x5x5 : Shape := ⟨4, ![10, 100, 5, 5]⟩
abbrev S_ : Shape := ⟨0, ![]⟩

class Facts : Prop where
  bcast_S_S16384x10x100 : S_.BroadcastsInDim S16384x10x100 (![] : Fin 0 → Fin S16384x10x100.rank)
  reducesTo_S16384x10x100_S_d0_1_2 : S16384x10x100.ReducesTo [0, 1, 2] S_
  h_S_ : 0 < S_.numel
  bcast_S_S10x100x5x5 : S_.BroadcastsInDim S10x100x5x5 (![] : Fin 0 → Fin S10x100x5x5.rank)
  reducesTo_S10x100x5x5_S_d0_1_2_3 : S10x100x5x5.ReducesTo [0, 1, 2, 3] S_

variable [Facts]

def fn {F : FTy → Type} [FloatOps F] (main_arg0 : FVec F S16384x10x100 .f32) (main_arg1 : FVec F S10x100x5x5 .f32) : IVec S_ 1 :=
  let main_v0 : FVec F S16384x10x100 .f32 := Host.absf main_arg0
  let main_cst : FVec F S_ .f32 := constant S_ .f32 0x7F800000#32
  let main_v1 : FVec F S16384x10x100 .f32 := broadcastInDim S16384x10x100 ![] bcast_S_S16384x10x100 main_cst
  let main_v2 : IVec S16384x10x100 1 := cmpf .olt main_v0 main_v1
  let main_c : IVec S_ 1 := constantI S_ 1 1#1
  let main_v3 : IVec S_ 1 := (fun x v => Host.reduce IntOp.andi x v reducesTo_S16384x10x100_S_d0_1_2 h_S_) main_v2 main_c
  let main_v4 : FVec F S10x100x5x5 .f32 := Host.absf main_arg1
  let main_cst_0 : FVec F S_ .f32 := constant S_ .f32 0x7F800000#32
  let main_v5 : FVec F S10x100x5x5 .f32 := broadcastInDim S10x100x5x5 ![] bcast_S_S10x100x5x5 main_cst_0
  let main_v6 : IVec S10x100x5x5 1 := cmpf .olt main_v4 main_v5
  let main_c_1 : IVec S_ 1 := constantI S_ 1 1#1
  let main_v7 : IVec S_ 1 := (fun x v => Host.reduce IntOp.andi x v reducesTo_S10x100x5x5_S_d0_1_2_3 h_S_) main_v6 main_c_1
  let main_v8 : IVec S_ 1 := andi main_v3 main_v7
  main_v8
-- ==== Kernel.lean ====
abbrev S16384x10x100 : Shape := ⟨3, ![16384, 10, 100]⟩
abbrev S10x100x5x5 : Shape := ⟨4, ![10, 100, 5, 5]⟩
abbrev S_ : Shape := ⟨0, ![]⟩
abbrev S16384x14x104 : Shape := ⟨3, ![16384, 14, 104]⟩
abbrev S16384x2x100 : Shape := ⟨3, ![16384, 2, 100]⟩
abbrev S2048x14x104 : Shape := ⟨3, ![2048, 14, 104]⟩
abbrev S2048x2x100 : Shape := ⟨3, ![2048, 2, 100]⟩
abbrev S2048x10x100 : Shape := ⟨3, ![2048, 10, 100]⟩
abbrev S10x100x1x1 : Shape := ⟨4, ![10, 100, 1, 1]⟩
abbrev S10x100 : Shape := ⟨2, ![10, 100]⟩
abbrev S1x10x100 : Shape := ⟨3, ![1, 10, 100]⟩
abbrev S2048x100 : Shape := ⟨2, ![2048, 100]⟩
abbrev S2048x1x100 : Shape := ⟨3, ![2048, 1, 100]⟩

abbrev nBuf : Space → Nat
  | .hbm => 6
  | .vmem => 5
  | .smem => 0
  | _ => 0

abbrev bufTy : (tb : Table) → Fin (tcTables nBuf tb) → BufTy
  | .hbm, ⟨0, _⟩ => ⟨S16384x10x100, .f32⟩
  | .hbm, ⟨1, _⟩ => ⟨S10x100x5x5, .f32⟩
  | .hbm, ⟨2, _⟩ => ⟨S_, .i32⟩
  | .hbm, ⟨3, _⟩ => ⟨S_, .f32⟩
  | .hbm, ⟨4, _⟩ => ⟨S16384x14x104, .f32⟩
  | .hbm, ⟨5, _⟩ => ⟨S16384x2x100, .f32⟩
  | .local _ .vmem, ⟨0, _⟩ => ⟨S2048x14x104, .f32⟩
  | .local _ .vmem, ⟨1, _⟩ => ⟨S2048x14x104, .f32⟩
  | .local _ .vmem, ⟨2, _⟩ => ⟨S10x100x5x5, .f32⟩
  | .local _ .vmem, ⟨3, _⟩ => ⟨S2048x2x100, .f32⟩
  | .local _ .vmem, ⟨4, _⟩ => ⟨S2048x2x100, .f32⟩
  | _, _ => ⟨S16384x10x100, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_c : Ref sig .tc := ⟨.hbm, 2, rfl⟩
abbrev main_call0_v0 : Ref sig .tc := ⟨.hbm, 3, rfl⟩
abbrev main_v0 : Ref sig .tc := ⟨.hbm, 4, rfl⟩
abbrev main_v1 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨1, ![8], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  let c0_i32_3 : BitVec 32 := 0#32
  ![c0_i32.toNat, c0_i32_0.toNat, c0_i32_1.toNat, c0_i32_2.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S2048x14x104 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S10x100x5x5 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S2048x2x100 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

class Facts₀ : Prop where
  pads_S16384x10x100_S16384x14x104_000_220_220 : S16384x10x100.Pads (![0, 2, 2] : Fin 3 → Nat) ![0, 2, 2] ![0, 0, 0] S16384x14x104
  h_S_ : 0 < S_.numel
  inb_S2048x14x104_S2048x14x104_0_0_0 : ∀ a, (![0, 0, 0] : Fin 3 → Nat) a + S2048x14x104.size a ≤ S2048x14x104.size a
  h_S2048x14x104 : 0 < S2048x14x104.numel
  shapeCasts_S2048x14x104_S2048x14x104 : S2048x14x104.ShapeCasts S2048x14x104
  inb_S10x100x5x5_S10x100x5x5_0_0_0_0 : ∀ a, (![0, 0, 0, 0] : Fin 4 → Nat) a + S10x100x5x5.size a ≤ S10x100x5x5.size a
  h_S10x100x5x5 : 0 < S10x100x5x5.numel
  slices_S2048x14x104_o0_0_0_S2048x10x100 : S2048x14x104.Slices ![0, 0, 0] S2048x10x100
  slices_S10x100x5x5_o0_0_0_0_S10x100x1x1 : S10x100x5x5.Slices ![0, 0, 0, 0] S10x100x1x1
  shapeCasts_S10x100x1x1_S10x100 : S10x100x1x1.ShapeCasts S10x100
  shapeCasts_S10x100_S1x10x100 : S10x100.ShapeCasts S1x10x100
  broadcasts_S1x10x100_S2048x10x100 : S1x10x100.Broadcasts S2048x10x100
  slices_S2048x14x104_o0_0_1_S2048x10x100 : S2048x14x104.Slices ![0, 0, 1] S2048x10x100
  slices_S10x100x5x5_o0_0_0_1_S10x100x1x1 : S10x100x5x5.Slices ![0, 0, 0, 1] S10x100x1x1
  slices_S2048x14x104_o0_0_2_S2048x10x100 : S2048x14x104.Slices ![0, 0, 2] S2048x10x100
  slices_S10x100x5x5_o0_0_0_2_S10x100x1x1 : S10x100x5x5.Slices ![0, 0, 0, 2] S10x100x1x1
  slices_S2048x14x104_o0_0_3_S2048x10x100 : S2048x14x104.Slices ![0, 0, 3] S2048x10x100
  slices_S10x100x5x5_o0_0_0_3_S10x100x1x1 : S10x100x5x5.Slices ![0, 0, 0, 3] S10x100x1x1
  slices_S2048x14x104_o0_0_4_S2048x10x100 : S2048x14x104.Slices ![0, 0, 4] S2048x10x100
  slices_S10x100x5x5_o0_0_0_4_S10x100x1x1 : S10x100x5x5.Slices ![0, 0, 0, 4] S10x100x1x1
  slices_S2048x14x104_o0_1_0_S2048x10x100 : S2048x14x104.Slices ![0, 1, 0] S2048x10x100
  slices_S10x100x5x5_o0_0_1_0_S10x100x1x1 : S10x100x5x5.Slices ![0, 0, 1, 0] S10x100x1x1
  slices_S2048x14x104_o0_1_1_S2048x10x100 : S2048x14x104.Slices ![0, 1, 1] S2048x10x100
  slices_S10x100x5x5_o0_0_1_1_S10x100x1x1 : S10x100x5x5.Slices ![0, 0, 1, 1] S10x100x1x1
  slices_S2048x14x104_o0_1_2_S2048x10x100 : S2048x14x104.Slices ![0, 1, 2] S2048x10x100
  slices_S10x100x5x5_o0_0_1_2_S10x100x1x1 : S10x100x5x5.Slices ![0, 0, 1, 2] S10x100x1x1
  slices_S2048x14x104_o0_1_3_S2048x10x100 : S2048x14x104.Slices ![0, 1, 3] S2048x10x100
  slices_S10x100x5x5_o0_0_1_3_S10x100x1x1 : S10x100x5x5.Slices ![0, 0, 1, 3] S10x100x1x1
  slices_S2048x14x104_o0_1_4_S2048x10x100 : S2048x14x104.Slices ![0, 1, 4] S2048x10x100
  slices_S10x100x5x5_o0_0_1_4_S10x100x1x1 : S10x100x5x5.Slices ![0, 0, 1, 4] S10x100x1x1
  slices_S2048x14x104_o0_2_0_S2048x10x100 : S2048x14x104.Slices ![0, 2, 0] S2048x10x100
  slices_S10x100x5x5_o0_0_2_0_S10x100x1x1 : S10x100x5x5.Slices ![0, 0, 2, 0] S10x100x1x1
  slices_S2048x14x104_o0_2_1_S2048x10x100 : S2048x14x104.Slices ![0, 2, 1] S2048x10x100
  slices_S10x100x5x5_o0_0_2_1_S10x100x1x1 : S10x100x5x5.Slices ![0, 0, 2, 1] S10x100x1x1
  slices_S2048x14x104_o0_2_2_S2048x10x100 : S2048x14x104.Slices ![0, 2, 2] S2048x10x100
  slices_S10x100x5x5_o0_0_2_2_S10x100x1x1 : S10x100x5x5.Slices ![0, 0, 2, 2] S10x100x1x1
  slices_S2048x14x104_o0_2_3_S2048x10x100 : S2048x14x104.Slices ![0, 2, 3] S2048x10x100
  slices_S10x100x5x5_o0_0_2_3_S10x100x1x1 : S10x100x5x5.Slices ![0, 0, 2, 3] S10x100x1x1
  slices_S2048x14x104_o0_2_4_S2048x10x100 : S2048x14x104.Slices ![0, 2, 4] S2048x10x100
  slices_S10x100x5x5_o0_0_2_4_S10x100x1x1 : S10x100x5x5.Slices ![0, 0, 2, 4] S10x100x1x1
  slices_S2048x14x104_o0_3_0_S2048x10x100 : S2048x14x104.Slices ![0, 3, 0] S2048x10x100
  slices_S10x100x5x5_o0_0_3_0_S10x100x1x1 : S10x100x5x5.Slices ![0, 0, 3, 0] S10x100x1x1
  slices_S2048x14x104_o0_3_1_S2048x10x100 : S2048x14x104.Slices ![0, 3, 1] S2048x10x100
  slices_S10x100x5x5_o0_0_3_1_S10x100x1x1 : S10x100x5x5.Slices ![0, 0, 3, 1] S10x100x1x1
  slices_S2048x14x104_o0_3_2_S2048x10x100 : S2048x14x104.Slices ![0, 3, 2] S2048x10x100
  slices_S10x100x5x5_o0_0_3_2_S10x100x1x1 : S10x100x5x5.Slices ![0, 0, 3, 2] S10x100x1x1
  slices_S2048x14x104_o0_3_3_S2048x10x100 : S2048x14x104.Slices ![0, 3, 3] S2048x10x100
  slices_S10x100x5x5_o0_0_3_3_S10x100x1x1 : S10x100x5x5.Slices ![0, 0, 3, 3] S10x100x1x1
  slices_S2048x14x104_o0_3_4_S2048x10x100 : S2048x14x104.Slices ![0, 3, 4] S2048x10x100
  slices_S10x100x5x5_o0_0_3_4_S10x100x1x1 : S10x100x5x5.Slices ![0, 0, 3, 4] S10x100x1x1
  slices_S2048x14x104_o0_4_0_S2048x10x100 : S2048x14x104.Slices ![0, 4, 0] S2048x10x100
  slices_S10x100x5x5_o0_0_4_0_S10x100x1x1 : S10x100x5x5.Slices ![0, 0, 4, 0] S10x100x1x1
  slices_S2048x14x104_o0_4_1_S2048x10x100 : S2048x14x104.Slices ![0, 4, 1] S2048x10x100
  slices_S10x100x5x5_o0_0_4_1_S10x100x1x1 : S10x100x5x5.Slices ![0, 0, 4, 1] S10x100x1x1
  slices_S2048x14x104_o0_4_2_S2048x10x100 : S2048x14x104.Slices ![0, 4, 2] S2048x10x100
  slices_S10x100x5x5_o0_0_4_2_S10x100x1x1 : S10x100x5x5.Slices ![0, 0, 4, 2] S10x100x1x1
  slices_S2048x14x104_o0_4_3_S2048x10x100 : S2048x14x104.Slices ![0, 4, 3] S2048x10x100
  slices_S10x100x5x5_o0_0_4_3_S10x100x1x1 : S10x100x5x5.Slices ![0, 0, 4, 3] S10x100x1x1
  slices_S2048x14x104_o0_4_4_S2048x10x100 : S2048x14x104.Slices ![0, 4, 4] S2048x10x100
  slices_S10x100x5x5_o0_0_4_4_S10x100x1x1 : S10x100x5x5.Slices ![0, 0, 4, 4] S10x100x1x1
  reduces_S2048x10x100_S2048x100 : S2048x10x100.Reduces [1] S2048x100
  shapeCasts_S2048x100_S2048x1x100 : S2048x100.ShapeCasts S2048x1x100
  inb_S2048x2x100_S2048x1x100_0_0_0 : ∀ a, (![0, 0, 0] : Fin 3 → Nat) a + S2048x1x100.size a ≤ S2048x2x100.size a
  h_S2048x1x100 : 0 < S2048x1x100.numel
  inb_S2048x2x100_S2048x1x100_0_1_0 : ∀ a, (![0, 1, 0] : Fin 3 → Nat) a + S2048x1x100.size a ≤ S2048x2x100.size a
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S2048x14x104.size a ≤ S16384x14x104.size a
  hwx0_0 : ∀ i : grid0.Coords, EltTy.bits .f32 = 32 ∨ (Rect.block (s := S16384x14x104) S2048x14x104.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S10x100x5x5.size a ≤ S10x100x5x5.size a
  hwx0_1 : ∀ i : grid0.Coords, EltTy.bits .f32 = 32 ∨ (Rect.block (s := S10x100x5x5) S10x100x5x5.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S2048x2x100.size a ≤ S16384x2x100.size a
  hwx0_2 : ∀ i : grid0.Coords, EltTy.bits .f32 = 32 ∨ (Rect.block (s := S16384x2x100) S2048x2x100.size (cc0_transform_2 i) (hinb0_2 i)).WholeWords (EltTy.packing .f32)

variable [Facts₀]

abbrev win0_0 : Pipeline.Window sig grid0 :=
  Pipeline.Window.ofSpec (Memref.whole main_v0) S2048x14x104.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S10x100x5x5.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v1) S2048x2x100.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

class Facts : Prop extends Facts₀ where

variable [Facts]
-- ==== ReferenceIdeal.lean ====
abbrev S16384x10x100 : Shape := ⟨3, ![16384, 10, 100]⟩
abbrev S10x100x5x5 : Shape := ⟨4, ![10, 100, 5, 5]⟩
abbrev S_ : Shape := ⟨0, ![]⟩
abbrev S16384x14x104 : Shape := ⟨3, ![16384, 14, 104]⟩
abbrev S10x100x1x1 : Shape := ⟨4, ![10, 100, 1, 1]⟩
abbrev S10x100 : Shape := ⟨2, ![10, 100]⟩
abbrev S1x10x100 : Shape := ⟨3, ![1, 10, 100]⟩
abbrev S16384x100 : Shape := ⟨2, ![16384, 100]⟩
abbrev S16384x1x100 : Shape := ⟨3, ![16384, 1, 100]⟩
abbrev S16384x2x100 : Shape := ⟨3, ![16384, 2, 100]⟩

abbrev nBuf : Space → Nat
  | .hbm => 211
  | .vmem => 0
  | .smem => 0
  | _ => 0

abbrev hbmTy0_0 (i : Nat) : BufTy := match i % 128 with
  | 0 => ⟨S16384x10x100, .f32⟩
  | 1 => ⟨S10x100x5x5, .f32⟩
  | 2 => ⟨S_, .i32⟩
  | 3 => ⟨S_, .f32⟩
  | 4 => ⟨S16384x14x104, .f32⟩
  | 5 => ⟨S_, .f32⟩
  | 6 => ⟨S16384x10x100, .f32⟩
  | 7 => ⟨S16384x10x100, .f32⟩
  | 8 => ⟨S10x100x1x1, .f32⟩
  | 9 => ⟨S10x100, .f32⟩
  | 10 => ⟨S1x10x100, .f32⟩
  | 11 => ⟨S16384x10x100, .f32⟩
  | 12 => ⟨S16384x10x100, .f32⟩
  | 13 => ⟨S16384x10x100, .f32⟩
  | 14 => ⟨S16384x10x100, .f32⟩
  | 15 => ⟨S10x100x1x1, .f32⟩
  | 16 => ⟨S10x100, .f32⟩
  | 17 => ⟨S1x10x100, .f32⟩
  | 18 => ⟨S16384x10x100, .f32⟩
  | 19 => ⟨S16384x10x100, .f32⟩
  | 20 => ⟨S16384x10x100, .f32⟩
  | 21 => ⟨S16384x10x100, .f32⟩
  | 22 => ⟨S10x100x1x1, .f32⟩
  | 23 => ⟨S10x100, .f32⟩
  | 24 => ⟨S1x10x100, .f32⟩
  | 25 => ⟨S16384x10x100, .f32⟩
  | 26 => ⟨S16384x10x100, .f32⟩
  | 27 => ⟨S16384x10x100, .f32⟩
  | 28 => ⟨S16384x10x100, .f32⟩
  | 29 => ⟨S10x100x1x1, .f32⟩
  | 30 => ⟨S10x100, .f32⟩
  | 31 => ⟨S1x10x100, .f32⟩
  | 32 => ⟨S16384x10x100, .f32⟩
  | 33 => ⟨S16384x10x100, .f32⟩
  | 34 => ⟨S16384x10x100, .f32⟩
  | 35 => ⟨S16384x10x100, .f32⟩
  | 36 => ⟨S10x100x1x1, .f32⟩
  | 37 => ⟨S10x100, .f32⟩
  | 38 => ⟨S1x10x100, .f32⟩
  | 39 => ⟨S16384x10x100, .f32⟩
  | 40 => ⟨S16384x10x100, .f32⟩
  | 41 => ⟨S16384x10x100, .f32⟩
  | 42 => ⟨S16384x10x100, .f32⟩
  | 43 => ⟨S10x100x1x1, .f32⟩
  | 44 => ⟨S10x100, .f32⟩
  | 45 => ⟨S1x10x100, .f32⟩
  | 46 => ⟨S16384x10x100, .f32⟩
  | 47 => ⟨S16384x10x100, .f32⟩
  | 48 => ⟨S16384x10x100, .f32⟩
  | 49 => ⟨S16384x10x100, .f32⟩
  | 50 => ⟨S10x100x1x1, .f32⟩
  | 51 => ⟨S10x100, .f32⟩
  | 52 => ⟨S1x10x100, .f32⟩
  | 53 => ⟨S16384x10x100, .f32⟩
  | 54 => ⟨S16384x10x100, .f32⟩
  | 55 => ⟨S16384x10x100, .f32⟩
  | 56 => ⟨S16384x10x100, .f32⟩
  | 57 => ⟨S10x100x1x1, .f32⟩
  | 58 => ⟨S10x100, .f32⟩
  | 59 => ⟨S1x10x100, .f32⟩
  | 60 => ⟨S16384x10x100, .f32⟩
  | 61 => ⟨S16384x10x100, .f32⟩
  | 62 => ⟨S16384x10x100, .f32⟩
  | 63 => ⟨S16384x10x100, .f32⟩
  | 64 => ⟨S10x100x1x1, .f32⟩
  | 65 => ⟨S10x100, .f32⟩
  | 66 => ⟨S1x10x100, .f32⟩
  | 67 => ⟨S16384x10x100, .f32⟩
  | 68 => ⟨S16384x10x100, .f32⟩
  | 69 => ⟨S16384x10x100, .f32⟩
  | 70 => ⟨S16384x10x100, .f32⟩
  | 71 => ⟨S10x100x1x1, .f32⟩
  | 72 => ⟨S10x100, .f32⟩
  | 73 => ⟨S1x10x100, .f32⟩
  | 74 => ⟨S16384x10x100, .f32⟩
  | 75 => ⟨S16384x10x100, .f32⟩
  | 76 => ⟨S16384x10x100, .f32⟩
  | 77 => ⟨S16384x10x100, .f32⟩
  | 78 => ⟨S10x100x1x1, .f32⟩
  | 79 => ⟨S10x100, .f32⟩
  | 80 => ⟨S1x10x100, .f32⟩
  | 81 => ⟨S16384x10x100, .f32⟩
  | 82 => ⟨S16384x10x100, .f32⟩
  | 83 => ⟨S16384x10x100, .f32⟩
  | 84 => ⟨S16384x10x100, .f32⟩
  | 85 => ⟨S10x100x1x1, .f32⟩
  | 86 => ⟨S10x100, .f32⟩
  | 87 => ⟨S1x10x100, .f32⟩
  | 88 => ⟨S16384x10x100, .f32⟩
  | 89 => ⟨S16384x10x100, .f32⟩
  | 90 => ⟨S16384x10x100, .f32⟩
  | 91 => ⟨S16384x10x100, .f32⟩
  | 92 => ⟨S10x100x1x1, .f32⟩
  | 93 => ⟨S10x100, .f32⟩
  | 94 => ⟨S1x10x100, .f32⟩
  | 95 => ⟨S16384x10x100, .f32⟩
  | 96 => ⟨S16384x10x100, .f32⟩
  | 97 => ⟨S16384x10x100, .f32⟩
  | 98 => ⟨S16384x10x100, .f32⟩
  | 99 => ⟨S10x100x1x1, .f32⟩
  | 100 => ⟨S10x100, .f32⟩
  | 101 => ⟨S1x10x100, .f32⟩
  | 102 => ⟨S16384x10x100, .f32⟩
  | 103 => ⟨S16384x10x100, .f32⟩
  | 104 => ⟨S16384x10x100, .f32⟩
  | 105 => ⟨S16384x10x100, .f32⟩
  | 106 => ⟨S10x100x1x1, .f32⟩
  | 107 => ⟨S10x100, .f32⟩
  | 108 => ⟨S1x10x100, .f32⟩
  | 109 => ⟨S16384x10x100, .f32⟩
  | 110 => ⟨S16384x10x100, .f32⟩
  | 111 => ⟨S16384x10x100, .f32⟩
  | 112 => ⟨S16384x10x100, .f32⟩
  | 113 => ⟨S10x100x1x1, .f32⟩
  | 114 => ⟨S10x100, .f32⟩
  | 115 => ⟨S1x10x100, .f32⟩
  | 116 => ⟨S16384x10x100, .f32⟩
  | 117 => ⟨S16384x10x100, .f32⟩
  | 118 => ⟨S16384x10x100, .f32⟩
  | 119 => ⟨S16384x10x100, .f32⟩
  | 120 => ⟨S10x100x1x1, .f32⟩
  | 121 => ⟨S10x100, .f32⟩
  | 122 => ⟨S1x10x100, .f32⟩
  | 123 => ⟨S16384x10x100, .f32⟩
  | 124 => ⟨S16384x10x100, .f32⟩
  | 125 => ⟨S16384x10x100, .f32⟩
  | 126 => ⟨S16384x10x100, .f32⟩
  | 127 => ⟨S10x100x1x1, .f32⟩
  | _ => ⟨S16384x10x100, .f32⟩

abbrev hbmTy0_1 (i : Nat) : BufTy := match i % 128 with
  | 0 => ⟨S10x100, .f32⟩
  | 1 => ⟨S1x10x100, .f32⟩
  | 2 => ⟨S16384x10x100, .f32⟩
  | 3 => ⟨S16384x10x100, .f32⟩
  | 4 => ⟨S16384x10x100, .f32⟩
  | 5 => ⟨S16384x10x100, .f32⟩
  | 6 => ⟨S10x100x1x1, .f32⟩
  | 7 => ⟨S10x100, .f32⟩
  | 8 => ⟨S1x10x100, .f32⟩
  | 9 => ⟨S16384x10x100, .f32⟩
  | 10 => ⟨S16384x10x100, .f32⟩
  | 11 => ⟨S16384x10x100, .f32⟩
  | 12 => ⟨S16384x10x100, .f32⟩
  | 13 => ⟨S10x100x1x1, .f32⟩
  | 14 => ⟨S10x100, .f32⟩
  | 15 => ⟨S1x10x100, .f32⟩
  | 16 => ⟨S16384x10x100, .f32⟩
  | 17 => ⟨S16384x10x100, .f32⟩
  | 18 => ⟨S16384x10x100, .f32⟩
  | 19 => ⟨S16384x10x100, .f32⟩
  | 20 => ⟨S10x100x1x1, .f32⟩
  | 21 => ⟨S10x100, .f32⟩
  | 22 => ⟨S1x10x100, .f32⟩
  | 23 => ⟨S16384x10x100, .f32⟩
  | 24 => ⟨S16384x10x100, .f32⟩
  | 25 => ⟨S16384x10x100, .f32⟩
  | 26 => ⟨S16384x10x100, .f32⟩
  | 27 => ⟨S10x100x1x1, .f32⟩
  | 28 => ⟨S10x100, .f32⟩
  | 29 => ⟨S1x10x100, .f32⟩
  | 30 => ⟨S16384x10x100, .f32⟩
  | 31 => ⟨S16384x10x100, .f32⟩
  | 32 => ⟨S16384x10x100, .f32⟩
  | 33 => ⟨S16384x10x100, .f32⟩
  | 34 => ⟨S10x100x1x1, .f32⟩
  | 35 => ⟨S10x100, .f32⟩
  | 36 => ⟨S1x10x100, .f32⟩
  | 37 => ⟨S16384x10x100, .f32⟩
  | 38 => ⟨S16384x10x100, .f32⟩
  | 39 => ⟨S16384x10x100, .f32⟩
  | 40 => ⟨S16384x10x100, .f32⟩
  | 41 => ⟨S10x100x1x1, .f32⟩
  | 42 => ⟨S10x100, .f32⟩
  | 43 => ⟨S1x10x100, .f32⟩
  | 44 => ⟨S16384x10x100, .f32⟩
  | 45 => ⟨S16384x10x100, .f32⟩
  | 46 => ⟨S16384x10x100, .f32⟩
  | 47 => ⟨S16384x10x100, .f32⟩
  | 48 => ⟨S10x100x1x1, .f32⟩
  | 49 => ⟨S10x100, .f32⟩
  | 50 => ⟨S1x10x100, .f32⟩
  | 51 => ⟨S16384x10x100, .f32⟩
  | 52 => ⟨S16384x10x100, .f32⟩
  | 53 => ⟨S16384x10x100, .f32⟩
  | 54 => ⟨S16384x10x100, .f32⟩
  | 55 => ⟨S16384x10x100, .f32⟩
  | 56 => ⟨S_, .f32⟩
  | 57 => ⟨S16384x10x100, .f32⟩
  | 58 => ⟨S16384x10x100, .f32⟩
  | 59 => ⟨S_, .f32⟩
  | 60 => ⟨S16384x10x100, .f32⟩
  | 61 => ⟨S16384x10x100, .f32⟩
  | 62 => ⟨S16384x10x100, .f32⟩
  | 63 => ⟨S_, .f32⟩
  | 64 => ⟨S16384x100, .f32⟩
  | 65 => ⟨S16384x1x100, .f32⟩
  | 66 => ⟨S16384x10x100, .f32⟩
  | 67 => ⟨S_, .f32⟩
  | 68 => ⟨S16384x10x100, .f32⟩
  | 69 => ⟨S16384x10x100, .f32⟩
  | 70 => ⟨S16384x10x100, .f32⟩
  | 71 => ⟨S_, .f32⟩
  | 72 => ⟨S16384x10x100, .f32⟩
  | 73 => ⟨S16384x10x100, .f32⟩
  | 74 => ⟨S16384x10x100, .f32⟩
  | 75 => ⟨S_, .f32⟩
  | 76 => ⟨S16384x10x100, .f32⟩
  | 77 => ⟨S16384x10x100, .f32⟩
  | 78 => ⟨S16384x10x100, .f32⟩
  | 79 => ⟨S_, .f32⟩
  | 80 => ⟨S16384x100, .f32⟩
  | 81 => ⟨S16384x1x100, .f32⟩
  | 82 => ⟨S16384x2x100, .f32⟩
  | _ => ⟨S16384x10x100, .f32⟩

abbrev hbmTy (i : Nat) : BufTy := match i / 128 with
  | 0 => hbmTy0_0 i
  | 1 => hbmTy0_1 i
  | _ => ⟨S16384x10x100, .f32⟩

abbrev bufTy : (tb : Table) → Fin (tcTables nBuf tb) → BufTy
  | .hbm, ⟨i, _⟩ => hbmTy i
  | _, _ => ⟨S16384x10x100, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_c : Ref sig .tc := ⟨.hbm, 2, rfl⟩
abbrev main_call0_v0 : Ref sig .tc := ⟨.hbm, 3, rfl⟩
abbrev main_v0 : Ref sig .tc := ⟨.hbm, 4, rfl⟩
abbrev main_cst : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev main_v14 : Ref sig .tc := ⟨.hbm, 19, rfl⟩
abbrev main_v15 : Ref sig .tc := ⟨.hbm, 20, rfl⟩
abbrev main_v16 : Ref sig .tc := ⟨.hbm, 21, rfl⟩
abbrev main_v17 : Ref sig .tc := ⟨.hbm, 22, rfl⟩
abbrev main_v18 : Ref sig .tc := ⟨.hbm, 23, rfl⟩
abbrev main_v19 : Ref sig .tc := ⟨.hbm, 24, rfl⟩
abbrev main_v20 : Ref sig .tc := ⟨.hbm, 25, rfl⟩
abbrev main_v21 : Ref sig .tc := ⟨.hbm, 26, rfl⟩
abbrev main_v22 : Ref sig .tc := ⟨.hbm, 27, rfl⟩
abbrev main_v23 : Ref sig .tc := ⟨.hbm, 28, rfl⟩
abbrev main_v24 : Ref sig .tc := ⟨.hbm, 29, rfl⟩
abbrev main_v25 : Ref sig .tc := ⟨.hbm, 30, rfl⟩
abbrev main_v26 : Ref sig .tc := ⟨.hbm, 31, rfl⟩
abbrev main_v27 : Ref sig .tc := ⟨.hbm, 32, rfl⟩
abbrev main_v28 : Ref sig .tc := ⟨.hbm, 33, rfl⟩
abbrev main_v29 : Ref sig .tc := ⟨.hbm, 34, rfl⟩
abbrev main_v30 : Ref sig .tc := ⟨.hbm, 35, rfl⟩
abbrev main_v31 : Ref sig .tc := ⟨.hbm, 36, rfl⟩
abbrev main_v32 : Ref sig .tc := ⟨.hbm, 37, rfl⟩
abbrev main_v33 : Ref sig .tc := ⟨.hbm, 38, rfl⟩
abbrev main_v34 : Ref sig .tc := ⟨.hbm, 39, rfl⟩
abbrev main_v35 : Ref sig .tc := ⟨.hbm, 40, rfl⟩
abbrev main_v36 : Ref sig .tc := ⟨.hbm, 41, rfl⟩
abbrev main_v37 : Ref sig .tc := ⟨.hbm, 42, rfl⟩
abbrev main_v38 : Ref sig .tc := ⟨.hbm, 43, rfl⟩
abbrev main_v39 : Ref sig .tc := ⟨.hbm, 44, rfl⟩
abbrev main_v40 : Ref sig .tc := ⟨.hbm, 45, rfl⟩
abbrev main_v41 : Ref sig .tc := ⟨.hbm, 46, rfl⟩
abbrev main_v42 : Ref sig .tc := ⟨.hbm, 47, rfl⟩
abbrev main_v43 : Ref sig .tc := ⟨.hbm, 48, rfl⟩
abbrev main_v44 : Ref sig .tc := ⟨.hbm, 49, rfl⟩
abbrev main_v45 : Ref sig .tc := ⟨.hbm, 50, rfl⟩
abbrev main_v46 : Ref sig .tc := ⟨.hbm, 51, rfl⟩
abbrev main_v47 : Ref sig .tc := ⟨.hbm, 52, rfl⟩
abbrev main_v48 : Ref sig .tc := ⟨.hbm, 53, rfl⟩
abbrev main_v49 : Ref sig .tc := ⟨.hbm, 54, rfl⟩
abbrev main_v50 : Ref sig .tc := ⟨.hbm, 55, rfl⟩
abbrev main_v51 : Ref sig .tc := ⟨.hbm, 56, rfl⟩
abbrev main_v52 : Ref sig .tc := ⟨.hbm, 57, rfl⟩
abbrev main_v53 : Ref sig .tc := ⟨.hbm, 58, rfl⟩
abbrev main_v54 : Ref sig .tc := ⟨.hbm, 59, rfl⟩
abbrev main_v55 : Ref sig .tc := ⟨.hbm, 60, rfl⟩
abbrev main_v56 : Ref sig .tc := ⟨.hbm, 61, rfl⟩
abbrev main_v57 : Ref sig .tc := ⟨.hbm, 62, rfl⟩
abbrev main_v58 : Ref sig .tc := ⟨.hbm, 63, rfl⟩
abbrev main_v59 : Ref sig .tc := ⟨.hbm, 64, rfl⟩
abbrev main_v60 : Ref sig .tc := ⟨.hbm, 65, rfl⟩
abbrev main_v61 : Ref sig .tc := ⟨.hbm, 66, rfl⟩
abbrev main_v62 : Ref sig .tc := ⟨.hbm, 67, rfl⟩
abbrev main_v63 : Ref sig .tc := ⟨.hbm, 68, rfl⟩
abbrev main_v64 : Ref sig .tc := ⟨.hbm, 69, rfl⟩
abbrev main_v65 : Ref sig .tc := ⟨.hbm, 70, rfl⟩
abbrev main_v66 : Ref sig .tc := ⟨.hbm, 71, rfl⟩
abbrev main_v67 : Ref sig .tc := ⟨.hbm, 72, rfl⟩
abbrev main_v68 : Ref sig .tc := ⟨.hbm, 73, rfl⟩
abbrev main_v69 : Ref sig .tc := ⟨.hbm, 74, rfl⟩
abbrev main_v70 : Ref sig .tc := ⟨.hbm, 75, rfl⟩
abbrev main_v71 : Ref sig .tc := ⟨.hbm, 76, rfl⟩
abbrev main_v72 : Ref sig .tc := ⟨.hbm, 77, rfl⟩
abbrev main_v73 : Ref sig .tc := ⟨.hbm, 78, rfl⟩
abbrev main_v74 : Ref sig .tc := ⟨.hbm, 79, rfl⟩
abbrev main_v75 : Ref sig .tc := ⟨.hbm, 80, rfl⟩
abbrev main_v76 : Ref sig .tc := ⟨.hbm, 81, rfl⟩
abbrev main_v77 : Ref sig .tc := ⟨.hbm, 82, rfl⟩
abbrev main_v78 : Ref sig .tc := ⟨.hbm, 83, rfl⟩
abbrev main_v79 : Ref sig .tc := ⟨.hbm, 84, rfl⟩
abbrev main_v80 : Ref sig .tc := ⟨.hbm, 85, rfl⟩
abbrev main_v81 : Ref sig .tc := ⟨.hbm, 86, rfl⟩
abbrev main_v82 : Ref sig .tc := ⟨.hbm, 87, rfl⟩
abbrev main_v83 : Ref sig .tc := ⟨.hbm, 88, rfl⟩
abbrev main_v84 : Ref sig .tc := ⟨.hbm, 89, rfl⟩
abbrev main_v85 : Ref sig .tc := ⟨.hbm, 90, rfl⟩
abbrev main_v86 : Ref sig .tc := ⟨.hbm, 91, rfl⟩
abbrev main_v87 : Ref sig .tc := ⟨.hbm, 92, rfl⟩
abbrev main_v88 : Ref sig .tc := ⟨.hbm, 93, rfl⟩
abbrev main_v89 : Ref sig .tc := ⟨.hbm, 94, rfl⟩
abbrev main_v90 : Ref sig .tc := ⟨.hbm, 95, rfl⟩
abbrev main_v91 : Ref sig .tc := ⟨.hbm, 96, rfl⟩
abbrev main_v92 : Ref sig .tc := ⟨.hbm, 97, rfl⟩
abbrev main_v93 : Ref sig .tc := ⟨.hbm, 98, rfl⟩
abbrev main_v94 : Ref sig .tc := ⟨.hbm, 99, rfl⟩
abbrev main_v95 : Ref sig .tc := ⟨.hbm, 100, rfl⟩
abbrev main_v96 : Ref sig .tc := ⟨.hbm, 101, rfl⟩
abbrev main_v97 : Ref sig .tc := ⟨.hbm, 102, rfl⟩
abbrev main_v98 : Ref sig .tc := ⟨.hbm, 103, rfl⟩
abbrev main_v99 : Ref sig .tc := ⟨.hbm, 104, rfl⟩
abbrev main_v100 : Ref sig .tc := ⟨.hbm, 105, rfl⟩
abbrev main_v101 : Ref sig .tc := ⟨.hbm, 106, rfl⟩
abbrev main_v102 : Ref sig .tc := ⟨.hbm, 107, rfl⟩
abbrev main_v103 : Ref sig .tc := ⟨.hbm, 108, rfl⟩
abbrev main_v104 : Ref sig .tc := ⟨.hbm, 109, rfl⟩
abbrev main_v105 : Ref sig .tc := ⟨.hbm, 110, rfl⟩
abbrev main_v106 : Ref sig .tc := ⟨.hbm, 111, rfl⟩
abbrev main_v107 : Ref sig .tc := ⟨.hbm, 112, rfl⟩
abbrev main_v108 : Ref sig .tc := ⟨.hbm, 113, rfl⟩
abbrev main_v109 : Ref sig .tc := ⟨.hbm, 114, rfl⟩
abbrev main_v110 : Ref sig .tc := ⟨.hbm, 115, rfl⟩
abbrev main_v111 : Ref sig .tc := ⟨.hbm, 116, rfl⟩
abbrev main_v112 : Ref sig .tc := ⟨.hbm, 117, rfl⟩
abbrev main_v113 : Ref sig .tc := ⟨.hbm, 118, rfl⟩
abbrev main_v114 : Ref sig .tc := ⟨.hbm, 119, rfl⟩
abbrev main_v115 : Ref sig .tc := ⟨.hbm, 120, rfl⟩
abbrev main_v116 : Ref sig .tc := ⟨.hbm, 121, rfl⟩
abbrev main_v117 : Ref sig .tc := ⟨.hbm, 122, rfl⟩
abbrev main_v118 : Ref sig .tc := ⟨.hbm, 123, rfl⟩
abbrev main_v119 : Ref sig .tc := ⟨.hbm, 124, rfl⟩
abbrev main_v120 : Ref sig .tc := ⟨.hbm, 125, rfl⟩
abbrev main_v121 : Ref sig .tc := ⟨.hbm, 126, rfl⟩
abbrev main_v122 : Ref sig .tc := ⟨.hbm, 127, rfl⟩
abbrev main_v123 : Ref sig .tc := ⟨.hbm, 128, rfl⟩
abbrev main_v124 : Ref sig .tc := ⟨.hbm, 129, rfl⟩
abbrev main_v125 : Ref sig .tc := ⟨.hbm, 130, rfl⟩
abbrev main_v126 : Ref sig .tc := ⟨.hbm, 131, rfl⟩
abbrev main_v127 : Ref sig .tc := ⟨.hbm, 132, rfl⟩
abbrev main_v128 : Ref sig .tc := ⟨.hbm, 133, rfl⟩
abbrev main_v129 : Ref sig .tc := ⟨.hbm, 134, rfl⟩
abbrev main_v130 : Ref sig .tc := ⟨.hbm, 135, rfl⟩
abbrev main_v131 : Ref sig .tc := ⟨.hbm, 136, rfl⟩
abbrev main_v132 : Ref sig .tc := ⟨.hbm, 137, rfl⟩
abbrev main_v133 : Ref sig .tc := ⟨.hbm, 138, rfl⟩
abbrev main_v134 : Ref sig .tc := ⟨.hbm, 139, rfl⟩
abbrev main_v135 : Ref sig .tc := ⟨.hbm, 140, rfl⟩
abbrev main_v136 : Ref sig .tc := ⟨.hbm, 141, rfl⟩
abbrev main_v137 : Ref sig .tc := ⟨.hbm, 142, rfl⟩
abbrev main_v138 : Ref sig .tc := ⟨.hbm, 143, rfl⟩
abbrev main_v139 : Ref sig .tc := ⟨.hbm, 144, rfl⟩
abbrev main_v140 : Ref sig .tc := ⟨.hbm, 145, rfl⟩
abbrev main_v141 : Ref sig .tc := ⟨.hbm, 146, rfl⟩
abbrev main_v142 : Ref sig .tc := ⟨.hbm, 147, rfl⟩
abbrev main_v143 : Ref sig .tc := ⟨.hbm, 148, rfl⟩
abbrev main_v144 : Ref sig .tc := ⟨.hbm, 149, rfl⟩
abbrev main_v145 : Ref sig .tc := ⟨.hbm, 150, rfl⟩
abbrev main_v146 : Ref sig .tc := ⟨.hbm, 151, rfl⟩
abbrev main_v147 : Ref sig .tc := ⟨.hbm, 152, rfl⟩
abbrev main_v148 : Ref sig .tc := ⟨.hbm, 153, rfl⟩
abbrev main_v149 : Ref sig .tc := ⟨.hbm, 154, rfl⟩
abbrev main_v150 : Ref sig .tc := ⟨.hbm, 155, rfl⟩
abbrev main_v151 : Ref sig .tc := ⟨.hbm, 156, rfl⟩
abbrev main_v152 : Ref sig .tc := ⟨.hbm, 157, rfl⟩
abbrev main_v153 : Ref sig .tc := ⟨.hbm, 158, rfl⟩
abbrev main_v154 : Ref sig .tc := ⟨.hbm, 159, rfl⟩
abbrev main_v155 : Ref sig .tc := ⟨.hbm, 160, rfl⟩
abbrev main_v156 : Ref sig .tc := ⟨.hbm, 161, rfl⟩
abbrev main_v157 : Ref sig .tc := ⟨.hbm, 162, rfl⟩
abbrev main_v158 : Ref sig .tc := ⟨.hbm, 163, rfl⟩
abbrev main_v159 : Ref sig .tc := ⟨.hbm, 164, rfl⟩
abbrev main_v160 : Ref sig .tc := ⟨.hbm, 165, rfl⟩
abbrev main_v161 : Ref sig .tc := ⟨.hbm, 166, rfl⟩
abbrev main_v162 : Ref sig .tc := ⟨.hbm, 167, rfl⟩
abbrev main_v163 : Ref sig .tc := ⟨.hbm, 168, rfl⟩
abbrev main_v164 : Ref sig .tc := ⟨.hbm, 169, rfl⟩
abbrev main_v165 : Ref sig .tc := ⟨.hbm, 170, rfl⟩
abbrev main_v166 : Ref sig .tc := ⟨.hbm, 171, rfl⟩
abbrev main_v167 : Ref sig .tc := ⟨.hbm, 172, rfl⟩
abbrev main_v168 : Ref sig .tc := ⟨.hbm, 173, rfl⟩
abbrev main_v169 : Ref sig .tc := ⟨.hbm, 174, rfl⟩
abbrev main_v170 : Ref sig .tc := ⟨.hbm, 175, rfl⟩
abbrev main_v171 : Ref sig .tc := ⟨.hbm, 176, rfl⟩
abbrev main_v172 : Ref sig .tc := ⟨.hbm, 177, rfl⟩
abbrev main_v173 : Ref sig .tc := ⟨.hbm, 178, rfl⟩
abbrev main_v174 : Ref sig .tc := ⟨.hbm, 179, rfl⟩
abbrev main_v175 : Ref sig .tc := ⟨.hbm, 180, rfl⟩
abbrev main_v176 : Ref sig .tc := ⟨.hbm, 181, rfl⟩
abbrev main_v177 : Ref sig .tc := ⟨.hbm, 182, rfl⟩
abbrev main_v178 : Ref sig .tc := ⟨.hbm, 183, rfl⟩
abbrev main_cst_0 : Ref sig .tc := ⟨.hbm, 184, rfl⟩
abbrev main_v179 : Ref sig .tc := ⟨.hbm, 185, rfl⟩
abbrev main_v180 : Ref sig .tc := ⟨.hbm, 186, rfl⟩
abbrev main_cst_1 : Ref sig .tc := ⟨.hbm, 187, rfl⟩
abbrev main_v181 : Ref sig .tc := ⟨.hbm, 188, rfl⟩
abbrev main_v182 : Ref sig .tc := ⟨.hbm, 189, rfl⟩
abbrev main_v183 : Ref sig .tc := ⟨.hbm, 190, rfl⟩
abbrev main_cst_2 : Ref sig .tc := ⟨.hbm, 191, rfl⟩
abbrev main_v184 : Ref sig .tc := ⟨.hbm, 192, rfl⟩
abbrev main_v185 : Ref sig .tc := ⟨.hbm, 193, rfl⟩
abbrev main_v186 : Ref sig .tc := ⟨.hbm, 194, rfl⟩
abbrev main_cst_3 : Ref sig .tc := ⟨.hbm, 195, rfl⟩
abbrev main_v187 : Ref sig .tc := ⟨.hbm, 196, rfl⟩
abbrev main_v188 : Ref sig .tc := ⟨.hbm, 197, rfl⟩
abbrev main_v189 : Ref sig .tc := ⟨.hbm, 198, rfl⟩
abbrev main_cst_4 : Ref sig .tc := ⟨.hbm, 199, rfl⟩
abbrev main_v190 : Ref sig .tc := ⟨.hbm, 200, rfl⟩
abbrev main_v191 : Ref sig .tc := ⟨.hbm, 201, rfl⟩
abbrev main_v192 : Ref sig .tc := ⟨.hbm, 202, rfl⟩
abbrev main_cst_5 : Ref sig .tc := ⟨.hbm, 203, rfl⟩
abbrev main_v193 : Ref sig .tc := ⟨.hbm, 204, rfl⟩
abbrev main_v194 : Ref sig .tc := ⟨.hbm, 205, rfl⟩
abbrev main_v195 : Ref sig .tc := ⟨.hbm, 206, rfl⟩
abbrev main_cst_6 : Ref sig .tc := ⟨.hbm, 207, rfl⟩
abbrev main_v196 : Ref sig .tc := ⟨.hbm, 208, rfl⟩
abbrev main_v197 : Ref sig .tc := ⟨.hbm, 209, rfl⟩
abbrev main_v198 : Ref sig .tc := ⟨.hbm, 210, rfl⟩

abbrev nD : Nat := 1
abbrev τ : Topo := Topo.v7x

variable {F : FTy → Type} [FloatOps F]

class Facts₀ : Prop where
  pads_S16384x10x100_S16384x14x104_000_220_220 : S16384x10x100.Pads (![0, 2, 2] : Fin 3 → Nat) ![0, 2, 2] ![0, 0, 0] S16384x14x104
  h_S_ : 0 < S_.numel
  bcast_S_S16384x10x100 : S_.BroadcastsInDim S16384x10x100 (![] : Fin 0 → Fin S16384x10x100.rank)
  slices_S16384x14x104_S16384x10x100_0_0_0 : S16384x14x104.Slices ![0, 0, 0] S16384x10x100
  slices_S10x100x5x5_S10x100x1x1_0_0_0_0 : S10x100x5x5.Slices ![0, 0, 0, 0] S10x100x1x1
  shapeCasts_S10x100x1x1_S10x100 : S10x100x1x1.ShapeCasts S10x100
  bcast_S10x100_S1x10x100_1_2 : S10x100.BroadcastsInDim S1x10x100 (![1, 2] : Fin 2 → Fin S1x10x100.rank)
  bcast_S1x10x100_S16384x10x100_0_1_2 : S1x10x100.BroadcastsInDim S16384x10x100 (![0, 1, 2] : Fin 3 → Fin S16384x10x100.rank)
  slices_S16384x14x104_S16384x10x100_0_0_1 : S16384x14x104.Slices ![0, 0, 1] S16384x10x100
  slices_S10x100x5x5_S10x100x1x1_0_0_0_1 : S10x100x5x5.Slices ![0, 0, 0, 1] S10x100x1x1
  slices_S16384x14x104_S16384x10x100_0_0_2 : S16384x14x104.Slices ![0, 0, 2] S16384x10x100
  slices_S10x100x5x5_S10x100x1x1_0_0_0_2 : S10x100x5x5.Slices ![0, 0, 0, 2] S10x100x1x1
  slices_S16384x14x104_S16384x10x100_0_0_3 : S16384x14x104.Slices ![0, 0, 3] S16384x10x100
  slices_S10x100x5x5_S10x100x1x1_0_0_0_3 : S10x100x5x5.Slices ![0, 0, 0, 3] S10x100x1x1
  slices_S16384x14x104_S16384x10x100_0_0_4 : S16384x14x104.Slices ![0, 0, 4] S16384x10x100
  slices_S10x100x5x5_S10x100x1x1_0_0_0_4 : S10x100x5x5.Slices ![0, 0, 0, 4] S10x100x1x1
  slices_S16384x14x104_S16384x10x100_0_1_0 : S16384x14x104.Slices ![0, 1, 0] S16384x10x100
  slices_S10x100x5x5_S10x100x1x1_0_0_1_0 : S10x100x5x5.Slices ![0, 0, 1, 0] S10x100x1x1
  slices_S16384x14x104_S16384x10x100_0_1_1 : S16384x14x104.Slices ![0, 1, 1] S16384x10x100
  slices_S10x100x5x5_S10x100x1x1_0_0_1_1 : S10x100x5x5.Slices ![0, 0, 1, 1] S10x100x1x1
  slices_S16384x14x104_S16384x10x100_0_1_2 : S16384x14x104.Slices ![0, 1, 2] S16384x10x100
  slices_S10x100x5x5_S10x100x1x1_0_0_1_2 : S10x100x5x5.Slices ![0, 0, 1, 2] S10x100x1x1
  slices_S16384x14x104_S16384x10x100_0_1_3 : S16384x14x104.Slices ![0, 1, 3] S16384x10x100
  slices_S10x100x5x5_S10x100x1x1_0_0_1_3 : S10x100x5x5.Slices ![0, 0, 1, 3] S10x100x1x1
  slices_S16384x14x104_S16384x10x100_0_1_4 : S16384x14x104.Slices ![0, 1, 4] S16384x10x100
  slices_S10x100x5x5_S10x100x1x1_0_0_1_4 : S10x100x5x5.Slices ![0, 0, 1, 4] S10x100x1x1
  slices_S16384x14x104_S16384x10x100_0_2_0 : S16384x14x104.Slices ![0, 2, 0] S16384x10x100
  slices_S10x100x5x5_S10x100x1x1_0_0_2_0 : S10x100x5x5.Slices ![0, 0, 2, 0] S10x100x1x1
  slices_S16384x14x104_S16384x10x100_0_2_1 : S16384x14x104.Slices ![0, 2, 1] S16384x10x100
  slices_S10x100x5x5_S10x100x1x1_0_0_2_1 : S10x100x5x5.Slices ![0, 0, 2, 1] S10x100x1x1
  slices_S16384x14x104_S16384x10x100_0_2_2 : S16384x14x104.Slices ![0, 2, 2] S16384x10x100
  slices_S10x100x5x5_S10x100x1x1_0_0_2_2 : S10x100x5x5.Slices ![0, 0, 2, 2] S10x100x1x1
  slices_S16384x14x104_S16384x10x100_0_2_3 : S16384x14x104.Slices ![0, 2, 3] S16384x10x100
  slices_S10x100x5x5_S10x100x1x1_0_0_2_3 : S10x100x5x5.Slices ![0, 0, 2, 3] S10x100x1x1
  slices_S16384x14x104_S16384x10x100_0_2_4 : S16384x14x104.Slices ![0, 2, 4] S16384x10x100
  slices_S10x100x5x5_S10x100x1x1_0_0_2_4 : S10x100x5x5.Slices ![0, 0, 2, 4] S10x100x1x1
  slices_S16384x14x104_S16384x10x100_0_3_0 : S16384x14x104.Slices ![0, 3, 0] S16384x10x100
  slices_S10x100x5x5_S10x100x1x1_0_0_3_0 : S10x100x5x5.Slices ![0, 0, 3, 0] S10x100x1x1
  slices_S16384x14x104_S16384x10x100_0_3_1 : S16384x14x104.Slices ![0, 3, 1] S16384x10x100
  slices_S10x100x5x5_S10x100x1x1_0_0_3_1 : S10x100x5x5.Slices ![0, 0, 3, 1] S10x100x1x1
  slices_S16384x14x104_S16384x10x100_0_3_2 : S16384x14x104.Slices ![0, 3, 2] S16384x10x100
  slices_S10x100x5x5_S10x100x1x1_0_0_3_2 : S10x100x5x5.Slices ![0, 0, 3, 2] S10x100x1x1
  slices_S16384x14x104_S16384x10x100_0_3_3 : S16384x14x104.Slices ![0, 3, 3] S16384x10x100
  slices_S10x100x5x5_S10x100x1x1_0_0_3_3 : S10x100x5x5.Slices ![0, 0, 3, 3] S10x100x1x1
  slices_S16384x14x104_S16384x10x100_0_3_4 : S16384x14x104.Slices ![0, 3, 4] S16384x10x100
  slices_S10x100x5x5_S10x100x1x1_0_0_3_4 : S10x100x5x5.Slices ![0, 0, 3, 4] S10x100x1x1
  slices_S16384x14x104_S16384x10x100_0_4_0 : S16384x14x104.Slices ![0, 4, 0] S16384x10x100
  slices_S10x100x5x5_S10x100x1x1_0_0_4_0 : S10x100x5x5.Slices ![0, 0, 4, 0] S10x100x1x1
  slices_S16384x14x104_S16384x10x100_0_4_1 : S16384x14x104.Slices ![0, 4, 1] S16384x10x100
  slices_S10x100x5x5_S10x100x1x1_0_0_4_1 : S10x100x5x5.Slices ![0, 0, 4, 1] S10x100x1x1
  slices_S16384x14x104_S16384x10x100_0_4_2 : S16384x14x104.Slices ![0, 4, 2] S16384x10x100
  slices_S10x100x5x5_S10x100x1x1_0_0_4_2 : S10x100x5x5.Slices ![0, 0, 4, 2] S10x100x1x1
  slices_S16384x14x104_S16384x10x100_0_4_3 : S16384x14x104.Slices ![0, 4, 3] S16384x10x100
  slices_S10x100x5x5_S10x100x1x1_0_0_4_3 : S10x100x5x5.Slices ![0, 0, 4, 3] S10x100x1x1
  slices_S16384x14x104_S16384x10x100_0_4_4 : S16384x14x104.Slices ![0, 4, 4] S16384x10x100
  slices_S10x100x5x5_S10x100x1x1_0_0_4_4 : S10x100x5x5.Slices ![0, 0, 4, 4] S10x100x1x1
  reducesTo_S16384x10x100_S16384x100_d1 : S16384x10x100.ReducesTo [1] S16384x100
  bcast_S16384x100_S16384x1x100_0_2 : S16384x100.BroadcastsInDim S16384x1x100 (![0, 2] : Fin 2 → Fin S16384x1x100.rank)
  concatenates_S16384x1x100_S16384x1x100_S16384x2x100_d1 : Shape.Concatenates [S16384x1x100, S16384x1x100] S16384x2x100 1

variable [Facts₀]

class Facts : Prop extends Facts₀ where

variable [Facts]
-- ==== Proof.LocalGate.lean ====
/-
  A locally connected 5×5 layer with a sigmoid gate, read one batch row at a time.

  For one batch row let p be its zero-padded plane (14 × 104) and w the unshared weights (10 × 100 × 5 × 5).
  The pre-activation of output cell (i, j) is the sum over the 25 taps (di, dj) of p (i + di) (j + dj) · w i j di dj,
  taken in row-major tap order from the value of the zero word; the gate is its logistic. The row's two results are,
  per column j, the sum over i of x i j · gate i j (the forecast) and the sum over i of
  0 · sqrt (gate² + ε) + η · gate² (the ridge penalty), with ε and η the two float words both programs carry.

  Also here: how the layout operations that both programs build a tap from (a unit-stride slice of the padded plane,
  a 1 × 1 slice of the weights re-laid and broadcast along the batch) read at an index, for any batch extent; the
  interior of a zero-padded array; and a sum over the middle axis of a rank-3 array as a plain finite sum.
-/
import Idealize.ShloMosaic.Lib.ValueIdx
import Idealize.ShloMosaic.Lib.ValueLayout
import Idealize.ShloMosaic.Lib.Pipeline.Value
import Idealize.ShloMosaic.PureOps.Ideal.Laws

noncomputable section

open scoped BigOperators

namespace Cert.LocalGate

open Idealize.ShloMosaic Idealize.ShloMosaic.ValueIdx

/-! ## The value of one batch row -/

/-- The weights' index set. -/
abbrev WIdx := (⟨4, ![10, 100, 5, 5]⟩ : Shape).Idx

/-- One tap of output cell (i, j): the padded plane at (di + i, dj + j) times that cell's weight for the tap. -/
def tap (p : Fin 14 → Fin 104 → EReal) (w : WIdx → EReal) (i : Fin 10) (j : Fin 100) (di dj : Fin 5) : EReal :=
  p ⟨di.val + i.val, by have := di.isLt; have := i.isLt; omega⟩ ⟨dj.val + j.val, by have := dj.isLt; have := j.isLt; omega⟩
    * w (ix4 i j di dj)

/-- The pre-activation of cell (i, j): the 25 taps added one after the other, in row-major tap order, onto z. -/
def preact (z : EReal) (p : Fin 14 → Fin 104 → EReal) (w : WIdx → EReal) (i : Fin 10) (j : Fin 100) : EReal :=
  z + tap p w i j 0 0 + tap p w i j 0 1 + tap p w i j 0 2 + tap p w i j 0 3 + tap p w i j 0 4
    + tap p w i j 1 0 + tap p w i j 1 1 + tap p w i j 1 2 + tap p w i j 1 3 + tap p w i j 1 4
    + tap p w i j 2 0 + tap p w i j 2 1 + tap p w i j 2 2 + tap p w i j 2 3 + tap p w i j 2 4
    + tap p w i j 3 0 + tap p w i j 3 1 + tap p w i j 3 2 + tap p w i j 3 3 + tap p w i j 3 4
    + tap p w i j 4 0 + tap p w i j 4 1 + tap p w i j 4 2 + tap p w i j 4 3 + tap p w i j 4 4

/-- The gate of cell (i, j): the logistic of its pre-activation. -/
def gate (z : EReal) (p : Fin 14 → Fin 104 → EReal) (w : WIdx → EReal) (i : Fin 10) (j : Fin 100) : EReal :=
  Ideal.logistic (preact z p w i j)

/-- The forecast of column j: the sum over the ten rows of the unpadded entry times its gate. -/
def forecast (z : EReal) (p : Fin 14 → Fin 104 → EReal) (x : Fin 10 → Fin 100 → EReal) (w : WIdx → EReal) (j : Fin 100) : EReal :=
  ∑ i : Fin 10, x i j * gate z p w i j

/-- The ridge penalty of column j: the sum over the ten rows of z · sqrt (gate² + ε) + η · gate². -/
def penalty (z ε η : EReal) (p : Fin 14 → Fin 104 → EReal) (w : WIdx → EReal) (j : Fin 100) : EReal :=
  ∑ i : Fin 10, (z * Ideal.sqrt (gate z p w i j * gate z p w i j + ε) + η * (gate z p w i j * gate z p w i j))

/-- The values of the three float words the two programs share: zero, ε (the word of 1e-6) and η (the word of 0.01). -/
abbrev z₀ : EReal := Ideal.ofBits .f32 0x00000000#32
abbrev ε₀ : EReal := Ideal.ofBits .f32 0x358637BD#32
abbrev η₀ : EReal := Ideal.ofBits .f32 0x3C23D70A#32

/-- The unpadded entries of a padded plane: two in from its low edges. -/
abbrev innerOf (p : Fin 14 → Fin 104 → EReal) : Fin 10 → Fin 100 → EReal :=
  fun i j => p ⟨2 + i.val, by have := i.isLt; omega⟩ ⟨2 + j.val, by have := j.isLt; omega⟩

/-- The two result rows of one batch row with padded plane p and unpadded entries x: the forecast (row 0) and the
    ridge penalty (row 1). -/
def rowOf (p : Fin 14 → Fin 104 → EReal) (x : Fin 10 → Fin 100 → EReal) (W : WIdx → EReal) (r : Fin 2) (j : Fin 100) : EReal :=
  if r.val = 0 then forecast z₀ p x W j else penalty z₀ ε₀ η₀ p W j

theorem rowOf_congr {p p' : Fin 14 → Fin 104 → EReal} {x x' : Fin 10 → Fin 100 → EReal} {W W' : WIdx → EReal} {r r' : Fin 2}
    {j j' : Fin 100} (hp : p = p') (hx : x = x') (hW : W = W') (hr : r = r') (hj : j = j') :
    rowOf p x W r j = rowOf p' x' W' r' j' := by
  subst hp hx hW hr hj; rfl

/-! ## The pieces of one tap, read at an index (any batch extent B)

Both programs build tap (di, dj) from the same two pieces: the unit-stride slice of the padded array [B, 14, 104] at
offsets (0, di, dj), of extents [B, 10, 100]; and the 1 × 1 slice of the weights at (0, 0, di, dj), re-laid as
[10, 100] and repeated along the batch axis — by a cast to [1, 10, 100] and a broadcast in the kernel, by two
broadcasts along named axes on the host. -/

variable {B : ℕ} {α : Type}

/-- A tap's offset on the weights' third axis is below 5: the 1 × 1 slice at it is inside the weights. -/
theorem tapRow_lt {di dj : ℕ} (h : (⟨4, ![10, 100, 5, 5]⟩ : Shape).Slices ![0, 0, di, dj] ⟨4, ![10, 100, 1, 1]⟩) : di < 5 := by
  have := h.2 2; exact Nat.lt_of_succ_le this

/-- … and on the fourth. -/
theorem tapCol_lt {di dj : ℕ} (h : (⟨4, ![10, 100, 5, 5]⟩ : Shape).Slices ![0, 0, di, dj] ⟨4, ![10, 100, 1, 1]⟩) : dj < 5 := by
  have := h.2 3; exact Nat.lt_of_succ_le this

/-- The slice of the padded array at offsets (0, di, dj), read at (b, i, j), is the array at (b, di + i, dj + j). -/
theorem slice_plane_apply (P : (⟨3, ![B, 14, 104]⟩ : Shape).Idx → α) (di dj : ℕ)
    (h : (⟨3, ![B, 14, 104]⟩ : Shape).Slices ![0, di, dj] ⟨3, ![B, 10, 100]⟩) (b : Fin B) (i : Fin 10) (j : Fin 100)
    (hi : di + i.val < 14) (hj : dj + j.val < 104) :
    extractStridedSlice ⟨3, ![B, 10, 100]⟩ ![0, di, dj] P h (ix3 b i j) = P (ix3 b ⟨di + i.val, hi⟩ ⟨dj + j.val, hj⟩) :=
  extractStridedSlice_apply _ P h _ _ (fun a => match a with
    | ⟨0, _⟩ => (Nat.zero_add _).symm
    | ⟨1, _⟩ => rfl
    | ⟨2, _⟩ => rfl)

/-- The 1 × 1 slice of the weights at tap (di, dj), read at (i, j, 0, 0), is the weight at (i, j, di, dj). -/
theorem slice_weight_apply (W : WIdx → α) (di dj : ℕ)
    (h : (⟨4, ![10, 100, 5, 5]⟩ : Shape).Slices ![0, 0, di, dj] ⟨4, ![10, 100, 1, 1]⟩) (i : Fin 10) (j : Fin 100) :
    extractStridedSlice ⟨4, ![10, 100, 1, 1]⟩ ![0, 0, di, dj] W h (ix4 i j (0 : Fin 1) (0 : Fin 1))
      = W (ix4 i j ⟨di, tapRow_lt h⟩ ⟨dj, tapCol_lt h⟩) :=
  extractStridedSlice_apply _ W h _ _ (fun a => match a with
    | ⟨0, _⟩ => (Nat.zero_add _).symm
    | ⟨1, _⟩ => (Nat.zero_add _).symm
    | ⟨2, _⟩ => rfl
    | ⟨3, _⟩ => rfl)

/-- The weights' 1 × 1 slice re-laid as [10, 100]: at (i, j) it is the slice at (i, j, 0, 0). -/
theorem relay_weight_apply (v : (⟨4, ![10, 100, 1, 1]⟩ : Shape).Idx → α)
    (h : (⟨4, ![10, 100, 1, 1]⟩ : Shape).ShapeCasts ⟨2, ![10, 100]⟩) (i : Fin 10) (j : Fin 100) :
    shapeCast ⟨2, ![10, 100]⟩ v h (ix2 i j) = v (ix4 i j (0 : Fin 1) (0 : Fin 1)) :=
  shapeCast_apply v h _ _ (by
    rw [Shape.rowMajor_val_four, Shape.rowMajor_val_two]
    show ((i.val * 100 + j.val) * 1 + 0) * 1 + 0 = i.val * 100 + j.val
    omega)

/-- The kernel's second piece: the weights' slice cast to [10, 100], then to [1, 10, 100], then broadcast along the
    batch; at (b, i, j) it is the weight at (i, j, di, dj). -/
theorem kernel_weight_apply (W : WIdx → α) (di dj : ℕ)
    (h2 : (⟨4, ![10, 100, 5, 5]⟩ : Shape).Slices ![0, 0, di, dj] ⟨4, ![10, 100, 1, 1]⟩)
    (h3 : (⟨4, ![10, 100, 1, 1]⟩ : Shape).ShapeCasts ⟨2, ![10, 100]⟩)
    (h4 : (⟨2, ![10, 100]⟩ : Shape).ShapeCasts ⟨3, ![1, 10, 100]⟩)
    (h5 : (⟨3, ![1, 10, 100]⟩ : Shape).Broadcasts ⟨3, ![B, 10, 100]⟩) (b : Fin B) (i : Fin 10) (j : Fin 100) :
    broadcastTo ⟨3, ![B, 10, 100]⟩ (shapeCast ⟨3, ![1, 10, 100]⟩ (shapeCast ⟨2, ![10, 100]⟩
        (extractStridedSlice ⟨4, ![10, 100, 1, 1]⟩ ![0, 0, di, dj] W h2) h3) h4) h5 (ix3 b i j)
      = W (ix4 i j ⟨di, tapRow_lt h2⟩ ⟨dj, tapCol_lt h2⟩) := by
  refine (broadcastTo_apply _ h5 (ix3 b i j) (ix3 (0 : Fin 1) i j) (fun a => match a with
    | ⟨0, _⟩ => by show 0 = if (1 : ℕ) = 1 then 0 else _; rw [if_pos rfl]
    | ⟨1, _⟩ => by show i.val = if (10 : ℕ) = 1 then 0 else i.val; rw [if_neg (by decide)]
    | ⟨2, _⟩ => by show j.val = if (100 : ℕ) = 1 then 0 else j.val; rw [if_neg (by decide)])).trans ?_
  refine (shapeCast_apply _ h4 (ix3 (0 : Fin 1) i j) (ix2 i j) (by
    rw [Shape.rowMajor_val_two, Shape.rowMajor_val_three]
    show i.val * 100 + j.val = (0 * 10 + i.val) * 100 + j.val
    omega)).trans ?_
  exact (relay_weight_apply _ h3 i j).trans (slice_weight_apply W di dj h2 i j)

/-- The host's second piece: the weights' slice re-laid as [10, 100], broadcast to [1, 10, 100] on axes (1, 2), then
    to [B, 10, 100] on axes (0, 1, 2); at (b, i, j) it is the weight at (i, j, di, dj). -/
theorem host_weight_apply (W : WIdx → α) (di dj : ℕ)
    (h2 : (⟨4, ![10, 100, 5, 5]⟩ : Shape).Slices ![0, 0, di, dj] ⟨4, ![10, 100, 1, 1]⟩)
    (h3 : (⟨4, ![10, 100, 1, 1]⟩ : Shape).ShapeCasts ⟨2, ![10, 100]⟩)
    (h4 : (⟨2, ![10, 100]⟩ : Shape).BroadcastsInDim ⟨3, ![1, 10, 100]⟩ ![1, 2])
    (h5 : (⟨3, ![1, 10, 100]⟩ : Shape).BroadcastsInDim ⟨3, ![B, 10, 100]⟩ ![0, 1, 2]) (b : Fin B) (i : Fin 10) (j : Fin 100) :
    broadcastInDim ⟨3, ![B, 10, 100]⟩ ![0, 1, 2] h5 (broadcastInDim ⟨3, ![1, 10, 100]⟩ ![1, 2] h4 (shapeCast ⟨2, ![10, 100]⟩
        (extractStridedSlice ⟨4, ![10, 100, 1, 1]⟩ ![0, 0, di, dj] W h2) h3)) (ix3 b i j)
      = W (ix4 i j ⟨di, tapRow_lt h2⟩ ⟨dj, tapCol_lt h2⟩) := by
  refine (broadcastInDim_apply _ h5 _ (ix3 b i j) (ix3 (0 : Fin 1) i j) (fun a => match a with
    | ⟨0, _⟩ => by show 0 = if (1 : ℕ) = 1 then 0 else _; rw [if_pos rfl]
    | ⟨1, _⟩ => by show i.val = if (10 : ℕ) = 1 then 0 else i.val; rw [if_neg (by decide)]
    | ⟨2, _⟩ => by show j.val = if (100 : ℕ) = 1 then 0 else j.val; rw [if_neg (by decide)])).trans ?_
  refine (broadcastInDim_apply _ h4 _ (ix3 (0 : Fin 1) i j) (ix2 i j) (fun a => match a with
    | ⟨0, _⟩ => by show i.val = if (10 : ℕ) = 1 then 0 else i.val; rw [if_neg (by decide)]
    | ⟨1, _⟩ => by show j.val = if (100 : ℕ) = 1 then 0 else j.val; rw [if_neg (by decide)])).trans ?_
  exact (relay_weight_apply _ h3 i j).trans (slice_weight_apply W di dj h2 i j)

/-! ## A tap at Ideal: the product of its two pieces is the layer's tap for the batch row -/

/-- The offset of a slice of the padded plane on its row axis leaves room for the ten output rows. -/
theorem planeRow_lt {di dj : ℕ} (h : (⟨3, ![B, 14, 104]⟩ : Shape).Slices ![0, di, dj] ⟨3, ![B, 10, 100]⟩) (i : Fin 10) :
    di + i.val < 14 := by
  have h1 : di + 10 ≤ 14 := h.2 1
  have := i.isLt; omega

/-- … and on its column axis for the hundred output columns. -/
theorem planeCol_lt {di dj : ℕ} (h : (⟨3, ![B, 14, 104]⟩ : Shape).Slices ![0, di, dj] ⟨3, ![B, 10, 100]⟩) (j : Fin 100) :
    dj + j.val < 104 := by
  have h1 : dj + 100 ≤ 104 := h.2 2
  have := j.isLt; omega

/-- The batch row b of a [B, 14, 104] array, as a plane. -/
abbrev planeOf (P : (⟨3, ![B, 14, 104]⟩ : Shape).Idx → EReal) (b : Fin B) : Fin 14 → Fin 104 → EReal :=
  fun r c => P (ix3 b r c)

/-- THE RESULT as one function of a padded array P, the unpadded array X and the weights W: at (b, r, j) the row value
    of batch row b. -/
def resultOf (P : (⟨3, ![B, 14, 104]⟩ : Shape).Idx → EReal) (X : (⟨3, ![B, 10, 100]⟩ : Shape).Idx → EReal) (W : WIdx → EReal) :
    (⟨3, ![B, 2, 100]⟩ : Shape).Idx → EReal :=
  fun y => rowOf (planeOf P (y 0)) (fun i j => X (ix3 (y 0) i j)) W (y 1) (y 2)

/-- The kernel's tap (di, dj) at (b, i, j). -/
theorem kernel_tap_apply (P : FVec Ideal ⟨3, ![B, 14, 104]⟩ .f32) (W : FVec Ideal ⟨4, ![10, 100, 5, 5]⟩ .f32) (di dj : ℕ)
    (h1 : (⟨3, ![B, 14, 104]⟩ : Shape).Slices ![0, di, dj] ⟨3, ![B, 10, 100]⟩)
    (h2 : (⟨4, ![10, 100, 5, 5]⟩ : Shape).Slices ![0, 0, di, dj] ⟨4, ![10, 100, 1, 1]⟩)
    (h3 : (⟨4, ![10, 100, 1, 1]⟩ : Shape).ShapeCasts ⟨2, ![10, 100]⟩)
    (h4 : (⟨2, ![10, 100]⟩ : Shape).ShapeCasts ⟨3, ![1, 10, 100]⟩)
    (h5 : (⟨3, ![1, 10, 100]⟩ : Shape).Broadcasts ⟨3, ![B, 10, 100]⟩) (b : Fin B) (i : Fin 10) (j : Fin 100) :
    mulf (extractStridedSlice ⟨3, ![B, 10, 100]⟩ ![0, di, dj] P h1)
        (broadcastTo ⟨3, ![B, 10, 100]⟩ (shapeCast ⟨3, ![1, 10, 100]⟩ (shapeCast ⟨2, ![10, 100]⟩
          (extractStridedSlice ⟨4, ![10, 100, 1, 1]⟩ ![0, 0, di, dj] W h2) h3) h4) h5) (ix3 b i j)
      = tap (planeOf P b) W i j ⟨di, tapRow_lt h2⟩ ⟨dj, tapCol_lt h2⟩ := by
  refine (mulf_apply _ _ _).trans ?_
  rw [slice_plane_apply P di dj h1 b i j (planeRow_lt h1 i) (planeCol_lt h1 j), kernel_weight_apply W di dj h2 h3 h4 h5 b i j]
  rfl

/-- The host's tap (di, dj) at (b, i, j). -/
theorem host_tap_apply (P : FVec Ideal ⟨3, ![B, 14, 104]⟩ .f32) (W : FVec Ideal ⟨4, ![10, 100, 5, 5]⟩ .f32) (di dj : ℕ)
    (h1 : (⟨3, ![B, 14, 104]⟩ : Shape).Slices ![0, di, dj] ⟨3, ![B, 10, 100]⟩)
    (h2 : (⟨4, ![10, 100, 5, 5]⟩ : Shape).Slices ![0, 0, di, dj] ⟨4, ![10, 100, 1, 1]⟩)
    (h3 : (⟨4, ![10, 100, 1, 1]⟩ : Shape).ShapeCasts ⟨2, ![10, 100]⟩)
    (h4 : (⟨2, ![10, 100]⟩ : Shape).BroadcastsInDim ⟨3, ![1, 10, 100]⟩ ![1, 2])
    (h5 : (⟨3, ![1, 10, 100]⟩ : Shape).BroadcastsInDim ⟨3, ![B, 10, 100]⟩ ![0, 1, 2]) (b : Fin B) (i : Fin 10) (j : Fin 100) :
    mulf (extractStridedSlice ⟨3, ![B, 10, 100]⟩ ![0, di, dj] P h1)
        (broadcastInDim ⟨3, ![B, 10, 100]⟩ ![0, 1, 2] h5 (broadcastInDim ⟨3, ![1, 10, 100]⟩ ![1, 2] h4 (shapeCast ⟨2, ![10, 100]⟩
          (extractStridedSlice ⟨4, ![10, 100, 1, 1]⟩ ![0, 0, di, dj] W h2) h3))) (ix3 b i j)
      = tap (planeOf P b) W i j ⟨di, tapRow_lt h2⟩ ⟨dj, tapCol_lt h2⟩ := by
  refine (mulf_apply _ _ _).trans ?_
  rw [slice_plane_apply P di dj h1 b i j (planeRow_lt h1 i) (planeCol_lt h1 j), host_weight_apply W di dj h2 h3 h4 h5 b i j]
  rfl

/-! ## The interior of the zero-padded array -/

/-- The array padded by two on each side of its last two axes, read two in from the low edge, is the array. -/
theorem pad_interior (x : (⟨3, ![B, 10, 100]⟩ : Shape).Idx → α) {u : Shape} (v : u.Idx → α)
    (h : (⟨3, ![B, 10, 100]⟩ : Shape).Pads ![0, 2, 2] ![0, 2, 2] ![0, 0, 0] ⟨3, ![B, 14, 104]⟩) (hu : 0 < u.numel)
    (b : Fin B) (i : Fin 10) (j : Fin 100) (hi : 2 + i.val < 14) (hj : 2 + j.val < 104) :
    pad ⟨3, ![B, 14, 104]⟩ ![0, 2, 2] ![0, 2, 2] ![0, 0, 0] x v h hu (ix3 b ⟨2 + i.val, hi⟩ ⟨2 + j.val, hj⟩) = x (ix3 b i j) := by
  unfold pad
  have hb := b.isLt; have hi' := i.isLt; have hj' := j.isLt
  rw [dif_pos (fun a => match a with
    | ⟨0, _⟩ => by show 0 ≤ b.val ∧ (b.val - 0) % (0 + 1) = 0 ∧ (b.val - 0) / (0 + 1) < B; omega
    | ⟨1, _⟩ => by show 2 ≤ 2 + i.val ∧ (2 + i.val - 2) % (0 + 1) = 0 ∧ (2 + i.val - 2) / (0 + 1) < 10; omega
    | ⟨2, _⟩ => by show 2 ≤ 2 + j.val ∧ (2 + j.val - 2) % (0 + 1) = 0 ∧ (2 + j.val - 2) / (0 + 1) < 100; omega)]
  exact congrArg x (funext fun a => Fin.ext (match a with
    | ⟨0, _⟩ => by show (b.val - 0) / (0 + 1) = b.val; omega
    | ⟨1, _⟩ => by show (2 + i.val - 2) / (0 + 1) = i.val; omega
    | ⟨2, _⟩ => by show (2 + j.val - 2) / (0 + 1) = j.val; omega))

/-! ## Sums over the middle axis, keepdims, and the two result rows -/

/-- Over result index (b, j) the source index with k inserted on the middle axis is (b, k, j). -/
theorem lift_mid (h : (⟨3, ![B, 10, 100]⟩ : Shape).Reduces [1] ⟨2, ![B, 100]⟩) (b : Fin B) (j : Fin 100) (k : Fin 10) :
    h.lift (ix2 b j) k = ix3 b k j :=
  funext fun a => Fin.ext (match a with | ⟨0, _⟩ => rfl | ⟨1, _⟩ => rfl | ⟨2, _⟩ => rfl)

/-- The kernel's lane sum over the middle axis from the zero pattern, at (b, j): the plain sum over the ten rows. -/
theorem lane_sum_mid (src : FVec Ideal ⟨3, ![B, 10, 100]⟩ .f32) (acc : BitVec 32)
    (h : (⟨3, ![B, 10, 100]⟩ : Shape).Reduces [1] ⟨2, ![B, 100]⟩) (hφ : FKind.Formats .f32)
    (hacc : acc = FKind.add.neutral .f32 hφ) (b : Fin B) (j : Fin 100) :
    multiReduction .add [1] ⟨2, ![B, 100]⟩ src acc h hφ hacc (ix2 b j) = ∑ k : Fin 10, src (ix3 b k j) :=
  (Ideal.multiReduction_add_single src acc h hφ hacc (ix2 b j)).trans
    (Finset.sum_congr rfl fun k _ => congrArg src (lift_mid h b j k))

/-- The host's sum over the middle axis, at (b, j): the initial value plus the sum over the ten rows. -/
theorem host_sum_mid (x : FVec Ideal ⟨3, ![B, 10, 100]⟩ .f32) {u : Shape} (init : u.Idx → Ideal .f32)
    (h' : (⟨3, ![B, 10, 100]⟩ : Shape).ReducesTo [1] ⟨2, ![B, 100]⟩) (hu : 0 < u.numel)
    (h : (⟨3, ![B, 10, 100]⟩ : Shape).Reduces [1] ⟨2, ![B, 100]⟩) (b : Fin B) (j : Fin 100) :
    Host.reduceAdd (F := Ideal) x init h' hu (ix2 b j) = init (Shape.Idx.first hu) + ∑ k : Fin 10, x (ix3 b k j) := by
  simp only [Host.reduceAdd, Ideal.hostReduceAdd_def]
  rw [Ideal.hostReduceAdd_single h' h]
  exact congrArg (_ + ·) (Finset.sum_congr rfl fun k _ => congrArg x (lift_mid h b j k))

/-- The host's keepdims: a [B, 100] array broadcast to [B, 1, 100] on axes (0, 2), at (b, 0, j), is the array at (b, j). -/
theorem keepdims_mid_apply (v : (⟨2, ![B, 100]⟩ : Shape).Idx → α)
    (h : (⟨2, ![B, 100]⟩ : Shape).BroadcastsInDim ⟨3, ![B, 1, 100]⟩ ![0, 2]) (b : Fin B) (j : Fin 100) :
    broadcastInDim ⟨3, ![B, 1, 100]⟩ ![0, 2] h v (ix3 b (0 : Fin 1) j) = v (ix2 b j) :=
  broadcastInDim_apply _ h v _ _ (fun a => match a with
    | ⟨0, _⟩ => by
        show b.val = if B = 1 then 0 else b.val
        have := b.isLt; split_ifs with hB
        · omega
        · rfl
    | ⟨1, _⟩ => by show j.val = if (100 : ℕ) = 1 then 0 else j.val; rw [if_neg (by decide)])

/-- Two [B, 1, 100] arrays joined along the middle axis: row 0 of the result is the first. -/
theorem join_rows_zero (a₀ a₁ : (⟨3, ![B, 1, 100]⟩ : Shape).Idx → α)
    (h : Shape.Concatenates [(⟨3, ![B, 1, 100]⟩ : Shape), ⟨3, ![B, 1, 100]⟩] ⟨3, ![B, 2, 100]⟩ 1) (b : Fin B) (j : Fin 100) :
    concatenate ⟨3, ![B, 2, 100]⟩ 1 [⟨⟨3, ![B, 1, 100]⟩, a₀⟩, ⟨⟨3, ![B, 1, 100]⟩, a₁⟩] h (ix3 b (0 : Fin 2) j) = a₀ (ix3 b (0 : Fin 1) j) :=
  concatenate_pair_apply_left 1 a₀ a₁ h _ rfl _ (fun c => match c with | ⟨0, _⟩ => rfl | ⟨1, _⟩ => rfl | ⟨2, _⟩ => rfl)

/-- … and row 1 the second. -/
theorem join_rows_one (a₀ a₁ : (⟨3, ![B, 1, 100]⟩ : Shape).Idx → α)
    (h : Shape.Concatenates [(⟨3, ![B, 1, 100]⟩ : Shape), ⟨3, ![B, 1, 100]⟩] ⟨3, ![B, 2, 100]⟩ 1) (b : Fin B) (j : Fin 100) :
    concatenate ⟨3, ![B, 2, 100]⟩ 1 [⟨⟨3, ![B, 1, 100]⟩, a₀⟩, ⟨⟨3, ![B, 1, 100]⟩, a₁⟩] h (ix3 b (1 : Fin 2) j) = a₁ (ix3 b (0 : Fin 1) j) :=
  concatenate_pair_apply_right 1 a₀ a₁ h _ rfl rfl _ (fun c hc => match c, hc with
    | ⟨0, _⟩, _ => rfl
    | ⟨1, _⟩, hc => absurd rfl hc
    | ⟨2, _⟩, _ => rfl) rfl

end Cert.LocalGate

end
-- ==== Proof.KernelBlock.lean ====
/-
  What one grid point of the kernel leaves in its output block, index by index.

  The point's two loads are its block P of the padded input, [2048, 14, 104], and the whole weights W. The body folds
  the 25 taps into the pre-activation, takes its logistic (the gate), and stores two rows per batch row b of the
  block: row 0, column j is the sum over i of P (b, 2 + i, 2 + j) · gate (b, i, j) — the unpadded entry sits two in
  from the padded plane's edge —, and row 1, column j is the sum over i of
  0 · sqrt (gate² + ε) + η · gate². So the block at (b, r, j) is the layer's row value for batch row b of P.
-/
import proofs.«117507_j16501264351338_1_alg».proof.Proof.Gen.KernelIdeal.Value
import proofs.«117507_j16501264351338_1_alg».proof.Proof.LocalGate

noncomputable section

open scoped BigOperators

namespace Cert.KernelIdeal.Block

open Cert.KernelIdeal Cert.KernelIdeal.Gen Cert.KernelIdeal.Value Cert.LocalGate
open Idealize.ShloMosaic Idealize.ShloMosaic.ValueIdx

variable {B : ℕ}

/-- The gate as the body computes it from its two loads. -/
abbrev gateVec (P0 : FVec Ideal S2048x14x104 .f32) (P1 : FVec Ideal S10x100x5x5 .f32) : FVec Ideal S2048x10x100 .f32 :=
  k0_pay1 (k0_pay4 P0) P1 (k0_pay11 (k0_pay4 P0) P1 (k0_pay8 (k0_pay4 P0) P1 (k0_pay5 P0 P1) (k0_pay6 P0) (k0_pay7 P1)) (k0_pay9 (k0_pay4 P0)) (k0_pay10 P1)) (k0_pay12 (k0_pay4 P0) P1)

/-- At (b, i, j) it is the layer's gate of cell (i, j) for batch row b of the block: the 25 products are the taps
    (each a slice of the block times a re-laid 1 × 1 slice of the weights), added in tap order onto the zero word. -/
theorem gateVec_apply (P0 : FVec Ideal S2048x14x104 .f32) (P1 : FVec Ideal S10x100x5x5 .f32) (b : Fin 2048) (i : Fin 10) (j : Fin 100) :
    gateVec P0 P1 (ix3 b i j) = gate z₀ (planeOf P0 b) P1 i j := by
  unfold gateVec
  simp only [k0_pay1, k0_pay4, k0_pay5, k0_pay6, k0_pay7, k0_pay8, k0_pay9, k0_pay10, k0_pay11, k0_pay12]
  show Ideal.logistic _ = Ideal.logistic _
  refine congrArg Ideal.logistic ?_
  simp only [shapeCast_self, addf_apply, broadcast_apply, kernel_tap_apply]
  rfl

theorem sqrt_apply {s : Shape} (x : FVec Ideal s .f32) (i : s.Idx) : sqrt x i = Ideal.sqrt (x i) := rfl

/-- Row 0 of the block, at batch row b and column j: the forecast. -/
theorem row_forecast (P0 : FVec Ideal S2048x14x104 .f32) (P1 : FVec Ideal S10x100x5x5 .f32) (b : Fin 2048) (j : Fin 100) :
    Fam2_0 (F := Ideal) P0 P1 ⟨0, by decide⟩ (ix2 b j) = forecast z₀ (planeOf P0 b) (innerOf (planeOf P0 b)) P1 j := by
  show multiReduction .add [1] S2048x100 (mulf (extractStridedSlice S2048x10x100 ![0, 2, 2] (shapeCast S2048x14x104 P0 shapeCasts_S2048x14x104_S2048x14x104) slices_S2048x14x104_o0_2_2_S2048x10x100) (gateVec P0 P1)) 0x00000000#32 reduces_S2048x10x100_S2048x100 (.inl rfl) rfl (ix2 b j) = _
  refine (lane_sum_mid _ _ _ _ _ b j).trans ?_
  refine Finset.sum_congr rfl fun i _ => ?_
  refine (mulf_apply _ _ _).trans ?_
  rw [shapeCast_self, slice_plane_apply P0 2 2 _ b i j (by have := i.isLt; omega) (by have := j.isLt; omega), gateVec_apply]

/-- Row 1 of the block, at batch row b and column j: the ridge penalty. -/
theorem row_penalty (P0 : FVec Ideal S2048x14x104 .f32) (P1 : FVec Ideal S10x100x5x5 .f32) (b : Fin 2048) (j : Fin 100) :
    Fam2_0 (F := Ideal) P0 P1 ⟨1, by decide⟩ (ix2 b j) = penalty z₀ ε₀ η₀ (planeOf P0 b) P1 j := by
  show multiReduction .add [1] S2048x100 (addf (mulf (broadcast S2048x10x100 (Scalar.ofBits .f32 0x00000000#32)) (sqrt (addf (mulf (gateVec P0 P1) (gateVec P0 P1)) (broadcast S2048x10x100 (Scalar.ofBits .f32 0x358637BD#32))))) (mulf (broadcast S2048x10x100 (Scalar.ofBits .f32 0x3C23D70A#32)) (mulf (gateVec P0 P1) (gateVec P0 P1)))) 0x00000000#32 reduces_S2048x10x100_S2048x100 (.inl rfl) rfl (ix2 b j) = _
  refine (lane_sum_mid _ _ _ _ _ b j).trans ?_
  refine Finset.sum_congr rfl fun i _ => ?_
  simp only [addf_apply, mulf_apply, broadcast_apply, sqrt_apply, gateVec_apply]
  rfl

/-- THE BLOCK a point leaves, at (b, r, j): the row value of batch row b of the point's block of the padded input. -/
theorem block_apply (P0 : FVec Ideal S2048x14x104 .f32) (P1 : FVec Ideal S10x100x5x5 .f32) (b : Fin 2048) (r : Fin 2) (j : Fin 100) :
    E2 (F := Ideal) P0 P1 (ix3 b r j) = rowOf (planeOf P0 b) (innerOf (planeOf P0 b)) P1 r j := by
  have e : E2 (F := Ideal) P0 P1 (ix3 b r j) = Fam2_0 (F := Ideal) P0 P1 r (ix2 b j) :=
    congrArg (Fam2_0 (F := Ideal) P0 P1 r) (funext fun a => match a with | ⟨0, _⟩ => rfl | ⟨1, _⟩ => rfl)
  rw [e]
  match r with
  | ⟨0, _⟩ => rw [rowOf, if_pos rfl]; exact row_forecast P0 P1 b j
  | ⟨1, _⟩ => rw [rowOf, if_neg (by show ¬ (1 : ℕ) = 0; decide)]; exact row_penalty P0 P1 b j

theorem hz3 : (![0, 0, 0] : Fin 3 → ℕ) = fun _ => 0 := funext fun a => by fin_cases a <;> rfl
theorem hz4 : (![0, 0, 0, 0] : Fin 4 → ℕ) = fun _ => 0 := funext fun a => by fin_cases a <;> rfl

/-- The same, for the body's result as the frame names it (its two stores as pieces over the two loads, each load
    through the whole of its buffer): at block index y it is the row value of batch row y 0 of the first load. -/
theorem out_apply (x0 : FVec Ideal S2048x14x104 .f32) (x1 : FVec Ideal S10x100x5x5 .f32) (b : Fin 2048) (r : Fin 2) (j : Fin 100) :
    out0_2 (F := Ideal) x0 x1 (ix3 b r j) = rowOf (planeOf x0 b) (innerOf (planeOf x0 b)) x1 r j := by
  unfold out0_2
  simp only [View.ld_unit_zero (S := S2048x14x104) hz3, View.ld_unit_zero (S := S10x100x5x5) hz4]
  exact (canon2_eq (F := Ideal) x0 x1 (ix3 b r j)).trans (block_apply x0 x1 b r j)

end Cert.KernelIdeal.Block

/-! ## From blocks to the array

Point t's blocks are batch rows 2048·t … 2048·t + 2047 of the padded input and of the result, and the whole of the
weights; so what it writes back is the block at t of ONE function of the padded input and the weights — at (b, r, j)
the row value of batch row b —, and the eight blocks tile the result. -/

namespace Cert.KernelIdeal.Whole

open Cert.KernelIdeal Cert.KernelIdeal.Gen Cert.KernelIdeal.Value Cert.KernelIdeal.Block Cert.LocalGate
open Idealize.ShloMosaic Idealize.ShloMosaic.TcCoe Idealize.SL.Sem Idealize.ShloMosaic.ValueIdx
open Idealize.ShloMosaic.Pipeline (Dat)

variable (m : (ℓ : Loc nD τ sig) → Buf (Elt Ideal) ℓ) (ρ : Dev nD → PrngReg)

/-- The result as one function of the padded input P and the weights W: at (b, r, j) the row value of batch row b of P. -/
def arrayValue (P : S16384x14x104.Idx → EReal) (W : S10x100x5x5.Idx → EReal) : S16384x2x100.Idx → EReal :=
  fun y => rowOf (planeOf P (y 0)) (innerOf (planeOf P (y 0))) W (y 1) (y 2)

/-- The input padded with the value of the integer 0 converted to a float, two on each side of its last two axes. -/
abbrev paddedOf (x : S16384x10x100.Idx → EReal) : S16384x14x104.Idx → EReal :=
  pad S16384x14x104 ![0, 2, 2] ![0, 2, 2] ![0, 0, 0] x (sitofp (F := Ideal) .f32 (constantI S_ 32 0#32)) pads_S16384x10x100_S16384x14x104_000_220_220 h_S_

/-- The region finds the padded input in the first window's array: the host operations before it are the constant,
    its conversion and the pad. -/
theorem padded_eq (c : Dev nD) : (V m c main_v0 : S16384x14x104.Idx → EReal) = paddedOf (m ((c : Thread nD τ).loc main_arg0)) := by
  dsimp only [Gen.V]
  simp only [Gen.hostOps0, Gen.hostOps0_1, List.flatten_cons, List.flatten_nil, List.append_nil, List.cons_append, List.nil_append]
  after_results
  rfl

/-- The printed index maps, decided over the eight points: the first and the third window move along the batch axis
    with the point, and sit at block 0 on every other axis; the weights' window never moves. -/
theorem idx_facts : ∀ t : Fin cfg0.N, win0_0.index t (0 : Fin 3) = t.val ∧ win0_0.index t (1 : Fin 3) = 0 ∧ win0_0.index t (2 : Fin 3) = 0
    ∧ win0_2.index t (0 : Fin 3) = t.val ∧ win0_2.index t (1 : Fin 3) = 0 ∧ win0_2.index t (2 : Fin 3) = 0
    ∧ win0_1.index t (0 : Fin 4) = 0 ∧ win0_1.index t (1 : Fin 4) = 0 ∧ win0_1.index t (2 : Fin 4) = 0 ∧ win0_1.index t (3 : Fin 4) = 0 :=
  (by decide +kernel : ∀ t : Fin grid0.N, _)

/-- WHAT POINT t WRITES BACK is block t of the array value of the padded input and the weights as the region finds them. -/
theorem flushed_eq (c : Dev nD) (t : Fin cfg0.N) :
    (dats m 0 c).flushed 2 t = ((cfg0.win 2).blk t).view.read (Elt Ideal) (arrayValue (V m c main_v0) (V m c main_arg1)) := by
  rw [flushed2]
  obtain ⟨e0, e1, e2, f0, f1, f2, g0, g1, g2, g3⟩ := idx_facts t
  funext y
  obtain ⟨b, r, j, rfl⟩ : ∃ (b : Fin 2048) (r : Fin 2) (j : Fin 100), y = ix3 b r j := ⟨y 0, y 1, y 2, eq_ix3 y⟩
  show out0_2 (F := Ideal) (iblk m c 0 t) (iblk m c 1 t) (ix3 b r j) = arrayValue (V m c main_v0) (V m c main_arg1) (((cfg0.win 2).blk t).view.emb (ix3 b r j))
  refine (out_apply (iblk m c 0 t) (iblk m c 1 t) b r j).trans ?_
  have hb := b.isLt; have hr := r.isLt; have hj := j.isLt
  have hp : planeOf (iblk m c 0 t) b = planeOf (V m c main_v0) ((((cfg0.win 2).blk t).view.emb (ix3 b r j)) 0) := by
    -- the batch row's plane: row b of the block is row 2048·t + b of the array
    funext r' c'
    show V m c main_v0 (((cfg0.win 0).blk t).view.emb (ix3 b r' c')) = V m c main_v0 _
    refine congrArg (V m c main_v0) (funext fun a => Fin.ext ?_)
    have hr' := r'.isLt; have hc' := c'.isLt
    match a with
    | ⟨0, _⟩ => show win0_0.index t (0 : Fin 3) * 2048 + 1 * b.val = win0_2.index t (0 : Fin 3) * 2048 + 1 * b.val; omega
    | ⟨1, _⟩ => show win0_0.index t (1 : Fin 3) * 14 + 1 * r'.val = r'.val; omega
    | ⟨2, _⟩ => show win0_0.index t (2 : Fin 3) * 104 + 1 * c'.val = c'.val; omega
  refine rowOf_congr hp (congrArg innerOf hp) ?_ ?_ ?_
  · -- the weights' block is the whole of the weights
    funext z
    show V m c main_arg1 (((cfg0.win 1).blk t).view.emb z) = V m c main_arg1 z
    refine congrArg (V m c main_arg1) (funext fun a => Fin.ext ?_)
    match a with
    | ⟨0, _⟩ => show win0_1.index t (0 : Fin 4) * 10 + 1 * (z 0).val = (z 0).val; omega
    | ⟨1, _⟩ => show win0_1.index t (1 : Fin 4) * 100 + 1 * (z 1).val = (z 1).val; omega
    | ⟨2, _⟩ => show win0_1.index t (2 : Fin 4) * 5 + 1 * (z 2).val = (z 2).val; omega
    | ⟨3, _⟩ => show win0_1.index t (3 : Fin 4) * 5 + 1 * (z 3).val = (z 3).val; omega
  · exact Fin.ext (by show r.val = win0_2.index t (1 : Fin 3) * 2 + 1 * r.val; omega)
  · exact Fin.ext (by show j.val = win0_2.index t (2 : Fin 3) * 100 + 1 * j.val; omega)

/-- An index of the result is in point t's block iff each coordinate is in the block's range on its axis. -/
theorem mem_blk (t : Fin cfg0.N) (i : S16384x2x100.Idx) :
    i ∈ ((cfg0.win 2).blk t).view.set ↔ ∀ a : Fin 3, win0_2.index t a * S2048x2x100.size a ≤ (i a).val ∧ (i a).val < win0_2.index t a * S2048x2x100.size a + S2048x2x100.size a := by
  show i ∈ ((View.whole main_v1).slice (win0_2.rect t)).set ↔ _
  rw [View.set_slice_whole, Rect.mem_set_unit]
  exact Iff.rfl

/-- Every index of the result is in the block of the point its batch row falls to, row / 2048. -/
theorem covered (i : S16384x2x100.Idx) : ∃ t : Fin cfg0.N, (cfg0.win 2).flush t = true ∧ i ∈ ((cfg0.win 2).blk t).view.set := by
  have hi0 : (i 0).val < 16384 := (i 0).isLt
  have hi1 : (i 1).val < 2 := (i 1).isLt
  have hi2 : (i 2).val < 100 := (i 2).isLt
  have hN : cfg0.N = 8 := N_0
  refine ⟨⟨(i 0).val / 2048, by rw [hN]; omega⟩, flush0_2 _, ?_⟩
  obtain ⟨-, -, -, f0, f1, f2, -⟩ := idx_facts ⟨(i 0).val / 2048, by rw [hN]; omega⟩
  rw [mem_blk]
  intro a
  match a with
  | ⟨0, _⟩ => show win0_2.index _ (0 : Fin 3) * 2048 ≤ (i 0).val ∧ (i 0).val < win0_2.index _ (0 : Fin 3) * 2048 + 2048; rw [f0]; show (i 0).val / 2048 * 2048 ≤ (i 0).val ∧ (i 0).val < (i 0).val / 2048 * 2048 + 2048; omega
  | ⟨1, _⟩ => show win0_2.index _ (1 : Fin 3) * 2 ≤ (i 1).val ∧ (i 1).val < win0_2.index _ (1 : Fin 3) * 2 + 2; rw [f1]; omega
  | ⟨2, _⟩ => show win0_2.index _ (2 : Fin 3) * 100 ≤ (i 2).val ∧ (i 2).val < win0_2.index _ (2 : Fin 3) * 100 + 100; rw [f2]; omega

/-- Two in from the low edges the padded input is the input: the array value of the padded input is the layer's result
    of the padded input, the input and the weights. -/
theorem arrayValue_padded (X : S16384x10x100.Idx → EReal) (W : S10x100x5x5.Idx → EReal) :
    arrayValue (paddedOf X) W = resultOf (paddedOf X) X W := by
  funext y
  refine rowOf_congr rfl ?_ rfl rfl rfl
  funext i j
  exact pad_interior X _ _ _ (y 0) i j _ _

/-- THE RESULT ARRAY after the run is the layer's result of the padded input, the input and the weights. -/
theorem final (c : Dev nD) : (dats m 0 c).arrAt 2 cfg0.N
    = resultOf (paddedOf (m ((c : Thread nD τ).loc main_arg0))) (m ((c : Thread nD τ).loc main_arg0)) (m ((c : Thread nD τ).loc main_arg1)) := by
  rw [(dats m 0 c).arrAt_eq_of_cover 2 (arrayValue (V m c main_v0) (V m c main_arg1)) (fun t _ => flushed_eq m c t) covered,
    padded_eq, V_main_arg1, arrayValue_padded]

/-- The kernel's run: it ends with the result at the layer's result of the padded input, the input and the weights, the arguments unchanged. -/
theorem run : θ_run defs (onTc (τ := τ) (main (F := Ideal))) ⟨m, fun _ => 0, ρ⟩ fun r => ∀ c : Dev nD,
      r.2.mem ((c : Thread nD τ).loc main_v1) = resultOf (paddedOf (m ((c : Thread nD τ).loc main_arg0))) (m ((c : Thread nD τ).loc main_arg0)) (m ((c : Thread nD τ).loc main_arg1))
      ∧ r.2.mem ((c : Thread nD τ).loc main_arg0) = m ((c : Thread nD τ).loc main_arg0)
      ∧ r.2.mem ((c : Thread nD τ).loc main_arg1) = m ((c : Thread nD τ).loc main_arg1) :=
  (θ_run defs _ _).mono (fun r h c => ⟨(h c).1.trans (final m c), (h c).2⟩) (run_blocks m ρ)

end Cert.KernelIdeal.Whole

end
-- ==== Proof.RefValue.lean ====
/-
  What the reference computes, read off the fold of its 209 host operations window by window.

  The operations come in four windows. The first pads the input, makes the zero array and adds taps 0 … 7 onto it;
  the second adds taps 8 … 15 and makes the two pieces of tap 16; the third multiplies those, adds tap 16 and taps
  17 … 24 and negates the sum; the fourth is the logistic spelt out — 1 / (1 + exp of the negated sum) —, the two
  sums over the middle axis from a zero, their keepdims and the join of the two rows. Each window is read for an
  arbitrary valuation of the buffers it starts from: first as an equation between arrays, each tap the product of a
  slice of the padded input and the re-laid, twice broadcast 1 × 1 slice of the weights; then at an index, against the
  layer's taps. Joined, the result at (b, r, j) is the layer's row value of batch row b.
-/
import proofs.«117507_j16501264351338_1_alg».proof.Proof.RefRun
import proofs.«117507_j16501264351338_1_alg».proof.Proof.LocalGate
import Idealize.ShloMosaic.Lib.IdealHost

noncomputable section

open scoped BigOperators

namespace Cert.ReferenceIdeal.RefValue

open Cert.ReferenceIdeal Cert.ReferenceIdeal.Gen Cert.ReferenceIdeal.RunByWindows Cert.LocalGate
open Idealize.ShloMosaic Idealize.ShloMosaic.TcCoe Idealize.SL.Sem Idealize.ShloMosaic.StableHlo Idealize.ShloMosaic.ValueIdx

variable (V : Valuation τ sig (Elt Ideal))

/-- A valuation's contents of the arrays the windows pass on, at their literal types: the input, the weights, the
    padded input, the running sum after 8 and after 16 taps, the two pieces of tap 16, the negated sum, the result. -/
abbrev xOf : FVec Ideal S16384x10x100 .f32 := V (Proc.devRef .tc main_arg0)
abbrev wOf : FVec Ideal S10x100x5x5 .f32 := V (Proc.devRef .tc main_arg1)
abbrev padOf : FVec Ideal S16384x14x104 .f32 := V (Proc.devRef .tc main_v0)
abbrev sum8Of : FVec Ideal S16384x10x100 .f32 := V (Proc.devRef .tc main_v57)
abbrev sum16Of : FVec Ideal S16384x10x100 .f32 := V (Proc.devRef .tc main_v113)
abbrev px16Of : FVec Ideal S16384x10x100 .f32 := V (Proc.devRef .tc main_v114)
abbrev pw16Of : FVec Ideal S1x10x100 .f32 := V (Proc.devRef .tc main_v117)
abbrev negOf : FVec Ideal S16384x10x100 .f32 := V (Proc.devRef .tc main_v177)
abbrev outOf : FVec Ideal S16384x2x100 .f32 := V (Proc.devRef .tc main_v198)

/-- The value of the float word of 1. -/
abbrev one₀ : EReal := Ideal.ofBits .f32 0x3F800000#32

/-- The input padded with the converted integer zero, two on each side of its last two axes. -/
abbrev paddedOf (x : FVec Ideal S16384x10x100 .f32) : FVec Ideal S16384x14x104 .f32 :=
  pad S16384x14x104 ![0, 2, 2] ![0, 2, 2] ![0, 0, 0] x (sitofp (F := Ideal) .f32 (constantI S_ 32 0#32)) pads_S16384x10x100_S16384x14x104_000_220_220 h_S_

/-- A float word repeated over the [16384, 10, 100] shape. -/
abbrev splat (w : BitVec 32) : FVec Ideal S16384x10x100 .f32 :=
  broadcastInDim S16384x10x100 ![] bcast_S_S16384x10x100 (constant (F := Ideal) S_ .f32 w)

theorem splat_apply (w : BitVec 32) (y : S16384x10x100.Idx) : splat w y = Ideal.ofBits .f32 w :=
  broadcastInDim_scalar_apply bcast_S_S16384x10x100 _ y

/-- Tap (di, dj) as the host makes it, an array: the slice of the padded input at (0, di, dj) times the weights' 1 × 1
    slice at (0, 0, di, dj), re-laid as [10, 100] and broadcast to [1, 10, 100], then to [16384, 10, 100]. -/
abbrev hostTapVec (P : FVec Ideal S16384x14x104 .f32) (W : FVec Ideal S10x100x5x5 .f32) (di dj : ℕ)
    (h1 : S16384x14x104.Slices ![0, di, dj] S16384x10x100) (h2 : S10x100x5x5.Slices ![0, 0, di, dj] S10x100x1x1) :
    FVec Ideal S16384x10x100 .f32 :=
  mulf (extractStridedSlice S16384x10x100 ![0, di, dj] P h1)
    (broadcastInDim S16384x10x100 ![0, 1, 2] bcast_S1x10x100_S16384x10x100_0_1_2
      (broadcastInDim S1x10x100 ![1, 2] bcast_S10x100_S1x10x100_1_2
        (shapeCast S10x100 (extractStridedSlice S10x100x1x1 ![0, 0, di, dj] W h2) shapeCasts_S10x100x1x1_S10x100)))

/-- At (b, i, j) it is the layer's tap for batch row b. -/
theorem hostTapVec_apply (P : FVec Ideal S16384x14x104 .f32) (W : FVec Ideal S10x100x5x5 .f32) (di dj : ℕ)
    (h1 : S16384x14x104.Slices ![0, di, dj] S16384x10x100) (h2 : S10x100x5x5.Slices ![0, 0, di, dj] S10x100x1x1)
    (b : Fin 16384) (i : Fin 10) (j : Fin 100) :
    hostTapVec P W di dj h1 h2 (ix3 b i j) = tap (planeOf P b) W i j ⟨di, tapRow_lt h2⟩ ⟨dj, tapCol_lt h2⟩ :=
  host_tap_apply P W di dj h1 h2 _ _ _ b i j

theorem negf_host_apply {s : Shape} (x : FVec Ideal s .f32) (i : s.Idx) : Host.negf x i = -(x i) := rfl
theorem exp_host_apply {s : Shape} (x : FVec Ideal s .f32) (i : s.Idx) : Host.exp x i = Ideal.exp (x i) := rfl
theorem sqrt_host_apply {s : Shape} (x : FVec Ideal s .f32) (i : s.Idx) : Host.sqrt x i = Ideal.sqrt (x i) := rfl

/-! ## Window 0: the pad, the zero array, taps 0 … 7 -/

theorem w0_arg0 : xOf (after ops_part0 V) = xOf V := by
  simp only [xOf, ops_part0]; after_results_simp
theorem w0_arg1 : wOf (after ops_part0 V) = wOf V := by
  simp only [wOf, ops_part0]; after_results_simp

/-- The padded input the window leaves: the input padded with the converted integer zero. -/
theorem w0_pad : padOf (after ops_part0 V) = paddedOf (xOf V) := by
  simp only [padOf, ops_part0]; after_results_simp
  rfl

/-- The running sum the window leaves: taps 0 … 7 of the padded input, added one after the other onto the zero array. -/
theorem w0_sum_vec : sum8Of (after ops_part0 V)
    = addf (addf (addf (addf (addf (addf (addf (addf (splat 0x00000000#32) (hostTapVec (paddedOf (xOf V)) (wOf V) 0 0 slices_S16384x14x104_S16384x10x100_0_0_0 slices_S10x100x5x5_S10x100x1x1_0_0_0_0)) (hostTapVec (paddedOf (xOf V)) (wOf V) 0 1 slices_S16384x14x104_S16384x10x100_0_0_1 slices_S10x100x5x5_S10x100x1x1_0_0_0_1)) (hostTapVec (paddedOf (xOf V)) (wOf V) 0 2 slices_S16384x14x104_S16384x10x100_0_0_2 slices_S10x100x5x5_S10x100x1x1_0_0_0_2)) (hostTapVec (paddedOf (xOf V)) (wOf V) 0 3 slices_S16384x14x104_S16384x10x100_0_0_3 slices_S10x100x5x5_S10x100x1x1_0_0_0_3)) (hostTapVec (paddedOf (xOf V)) (wOf V) 0 4 slices_S16384x14x104_S16384x10x100_0_0_4 slices_S10x100x5x5_S10x100x1x1_0_0_0_4)) (hostTapVec (paddedOf (xOf V)) (wOf V) 1 0 slices_S16384x14x104_S16384x10x100_0_1_0 slices_S10x100x5x5_S10x100x1x1_0_0_1_0)) (hostTapVec (paddedOf (xOf V)) (wOf V) 1 1 slices_S16384x14x104_S16384x10x100_0_1_1 slices_S10x100x5x5_S10x100x1x1_0_0_1_1)) (hostTapVec (paddedOf (xOf V)) (wOf V) 1 2 slices_S16384x14x104_S16384x10x100_0_1_2 slices_S10x100x5x5_S10x100x1x1_0_0_1_2) := by
  simp only [sum8Of, ops_part0]; after_results_simp
  rfl

theorem w0_sum (b : Fin 16384) (i : Fin 10) (j : Fin 100) :
    sum8Of (after ops_part0 V) (ix3 b i j)
      = (fun (P : Fin 14 → Fin 104 → EReal) (W : WIdx → EReal) => z₀ + tap P W i j 0 0 + tap P W i j 0 1 + tap P W i j 0 2 + tap P W i j 0 3 + tap P W i j 0 4 + tap P W i j 1 0 + tap P W i j 1 1 + tap P W i j 1 2)
          (planeOf (paddedOf (xOf V)) b) (wOf V) := by
  rw [w0_sum_vec]
  simp only [addf_apply, hostTapVec_apply, splat_apply]
  rfl

/-! ## Window 1: taps 8 … 15, and the two pieces of tap 16 -/

theorem w1_arg0 : xOf (after ops_part1 V) = xOf V := by
  simp only [xOf, ops_part1]; after_results_simp
theorem w1_arg1 : wOf (after ops_part1 V) = wOf V := by
  simp only [wOf, ops_part1]; after_results_simp
theorem w1_pad : padOf (after ops_part1 V) = padOf V := by
  simp only [padOf, ops_part1]; after_results_simp

theorem w1_sum_vec : sum16Of (after ops_part1 V)
    = addf (addf (addf (addf (addf (addf (addf (addf (sum8Of V) (hostTapVec (padOf V) (wOf V) 1 3 slices_S16384x14x104_S16384x10x100_0_1_3 slices_S10x100x5x5_S10x100x1x1_0_0_1_3)) (hostTapVec (padOf V) (wOf V) 1 4 slices_S16384x14x104_S16384x10x100_0_1_4 slices_S10x100x5x5_S10x100x1x1_0_0_1_4)) (hostTapVec (padOf V) (wOf V) 2 0 slices_S16384x14x104_S16384x10x100_0_2_0 slices_S10x100x5x5_S10x100x1x1_0_0_2_0)) (hostTapVec (padOf V) (wOf V) 2 1 slices_S16384x14x104_S16384x10x100_0_2_1 slices_S10x100x5x5_S10x100x1x1_0_0_2_1)) (hostTapVec (padOf V) (wOf V) 2 2 slices_S16384x14x104_S16384x10x100_0_2_2 slices_S10x100x5x5_S10x100x1x1_0_0_2_2)) (hostTapVec (padOf V) (wOf V) 2 3 slices_S16384x14x104_S16384x10x100_0_2_3 slices_S10x100x5x5_S10x100x1x1_0_0_2_3)) (hostTapVec (padOf V) (wOf V) 2 4 slices_S16384x14x104_S16384x10x100_0_2_4 slices_S10x100x5x5_S10x100x1x1_0_0_2_4)) (hostTapVec (padOf V) (wOf V) 3 0 slices_S16384x14x104_S16384x10x100_0_3_0 slices_S10x100x5x5_S10x100x1x1_0_0_3_0) := by
  simp only [sum16Of, ops_part1]; after_results_simp
  rfl

theorem w1_sum (b : Fin 16384) (i : Fin 10) (j : Fin 100) :
    sum16Of (after ops_part1 V) (ix3 b i j)
      = (fun (P : Fin 14 → Fin 104 → EReal) (W : WIdx → EReal) => sum8Of V (ix3 b i j) + tap P W i j 1 3 + tap P W i j 1 4 + tap P W i j 2 0 + tap P W i j 2 1 + tap P W i j 2 2 + tap P W i j 2 3 + tap P W i j 2 4 + tap P W i j 3 0)
          (planeOf (padOf V) b) (wOf V) := by
  rw [w1_sum_vec]
  simp only [addf_apply, hostTapVec_apply]
  rfl

/-- Tap 16's first piece: the slice of the padded input at (0, 3, 1). -/
theorem w1_piece_x : px16Of (after ops_part1 V)
    = extractStridedSlice S16384x10x100 ![0, 3, 1] (padOf V) slices_S16384x14x104_S16384x10x100_0_3_1 := by
  simp only [px16Of, ops_part1]; after_results_simp

/-- Tap 16's second piece before its last broadcast: the weights' 1 × 1 slice at (3, 1) as a [1, 10, 100] array. -/
theorem w1_piece_w : pw16Of (after ops_part1 V)
    = broadcastInDim S1x10x100 ![1, 2] bcast_S10x100_S1x10x100_1_2 (shapeCast S10x100
        (extractStridedSlice S10x100x1x1 ![0, 0, 3, 1] (wOf V) slices_S10x100x5x5_S10x100x1x1_0_0_3_1) shapeCasts_S10x100x1x1_S10x100) := by
  simp only [pw16Of, ops_part1]; after_results_simp
  rfl

/-! ## Window 2: tap 16, taps 17 … 24, the negation -/

theorem w2_arg0 : xOf (after ops_part2 V) = xOf V := by
  simp only [xOf, ops_part2]; after_results_simp
theorem w2_arg1 : wOf (after ops_part2 V) = wOf V := by
  simp only [wOf, ops_part2]; after_results_simp

theorem w2_neg_vec : negOf (after ops_part2 V)
    = Host.negf (addf (addf (addf (addf (addf (addf (addf (addf (addf (sum16Of V) (mulf (px16Of V) (broadcastInDim S16384x10x100 ![0, 1, 2] bcast_S1x10x100_S16384x10x100_0_1_2 (pw16Of V)))) (hostTapVec (padOf V) (wOf V) 3 2 slices_S16384x14x104_S16384x10x100_0_3_2 slices_S10x100x5x5_S10x100x1x1_0_0_3_2)) (hostTapVec (padOf V) (wOf V) 3 3 slices_S16384x14x104_S16384x10x100_0_3_3 slices_S10x100x5x5_S10x100x1x1_0_0_3_3)) (hostTapVec (padOf V) (wOf V) 3 4 slices_S16384x14x104_S16384x10x100_0_3_4 slices_S10x100x5x5_S10x100x1x1_0_0_3_4)) (hostTapVec (padOf V) (wOf V) 4 0 slices_S16384x14x104_S16384x10x100_0_4_0 slices_S10x100x5x5_S10x100x1x1_0_0_4_0)) (hostTapVec (padOf V) (wOf V) 4 1 slices_S16384x14x104_S16384x10x100_0_4_1 slices_S10x100x5x5_S10x100x1x1_0_0_4_1)) (hostTapVec (padOf V) (wOf V) 4 2 slices_S16384x14x104_S16384x10x100_0_4_2 slices_S10x100x5x5_S10x100x1x1_0_0_4_2)) (hostTapVec (padOf V) (wOf V) 4 3 slices_S16384x14x104_S16384x10x100_0_4_3 slices_S10x100x5x5_S10x100x1x1_0_0_4_3)) (hostTapVec (padOf V) (wOf V) 4 4 slices_S16384x14x104_S16384x10x100_0_4_4 slices_S10x100x5x5_S10x100x1x1_0_0_4_4)) := by
  simp only [negOf, ops_part2]; after_results_simp
  rfl

theorem w2_neg (b : Fin 16384) (i : Fin 10) (j : Fin 100) :
    negOf (after ops_part2 V) (ix3 b i j)
      = (fun (P : Fin 14 → Fin 104 → EReal) (W : WIdx → EReal) =>
          -(sum16Of V (ix3 b i j)
            + px16Of V (ix3 b i j) * broadcastInDim S16384x10x100 ![0, 1, 2] bcast_S1x10x100_S16384x10x100_0_1_2 (pw16Of V) (ix3 b i j)
            + tap P W i j 3 2 + tap P W i j 3 3 + tap P W i j 3 4 + tap P W i j 4 0 + tap P W i j 4 1 + tap P W i j 4 2 + tap P W i j 4 3 + tap P W i j 4 4))
          (planeOf (padOf V) b) (wOf V) := by
  rw [w2_neg_vec]
  simp only [negf_host_apply, addf_apply, hostTapVec_apply]
  rfl

/-! ## Window 3: the logistic spelt out, the two sums, the two rows -/

theorem w3_arg0 : xOf (after ops_part3 V) = xOf V := by
  simp only [xOf, ops_part3]; after_results_simp
theorem w3_arg1 : wOf (after ops_part3 V) = wOf V := by
  simp only [wOf, ops_part3]; after_results_simp

/-- The gate the window computes from the negated sum, at (b, i, j). -/
abbrev gateOfNeg (b : Fin 16384) (i : Fin 10) (j : Fin 100) : EReal :=
  Ideal.div one₀ (one₀ + Ideal.exp (negOf V (ix3 b i j)))

/-- … as an array. -/
abbrev gateVecOfNeg : FVec Ideal S16384x10x100 .f32 :=
  Host.divf (splat 0x3F800000#32) (addf (splat 0x3F800000#32) (Host.exp (negOf V)))

theorem gateVecOfNeg_apply (b : Fin 16384) (i : Fin 10) (j : Fin 100) : gateVecOfNeg V (ix3 b i j) = gateOfNeg V b i j := by
  show Ideal.div (splat 0x3F800000#32 (ix3 b i j)) (splat 0x3F800000#32 (ix3 b i j) + Ideal.exp (negOf V (ix3 b i j))) = _
  rw [splat_apply]

/-- The result the window leaves: the two sums over the middle axis from a zero, keepdims, joined as rows 0 and 1. -/
theorem w3_out_vec : outOf (after ops_part3 V)
    = concatenate S16384x2x100 1
        [⟨S16384x1x100, broadcastInDim S16384x1x100 ![0, 2] bcast_S16384x100_S16384x1x100_0_2
            (Host.reduceAdd (mulf (xOf V) (gateVecOfNeg V)) (constant (F := Ideal) S_ .f32 0x00000000#32) reducesTo_S16384x10x100_S16384x100_d1 h_S_)⟩,
         ⟨S16384x1x100, broadcastInDim S16384x1x100 ![0, 2] bcast_S16384x100_S16384x1x100_0_2
            (Host.reduceAdd (addf (mulf (splat 0x00000000#32) (Host.sqrt (addf (mulf (gateVecOfNeg V) (gateVecOfNeg V)) (splat 0x358637BD#32))))
                (mulf (splat 0x3C23D70A#32) (mulf (gateVecOfNeg V) (gateVecOfNeg V))))
              (constant (F := Ideal) S_ .f32 0x00000000#32) reducesTo_S16384x10x100_S16384x100_d1 h_S_)⟩]
        concatenates_S16384x1x100_S16384x1x100_S16384x2x100_d1 := by
  simp only [outOf, ops_part3]; after_results_simp
  rfl

theorem w3_row0 (b : Fin 16384) (j : Fin 100) :
    outOf (after ops_part3 V) (ix3 b (0 : Fin 2) j) = z₀ + ∑ i : Fin 10, xOf V (ix3 b i j) * gateOfNeg V b i j := by
  rw [w3_out_vec]
  refine (join_rows_zero _ _ _ b j).trans ?_
  refine (keepdims_mid_apply _ _ b j).trans ?_
  refine (host_sum_mid _ _ _ _ (by decide) b j).trans ?_
  refine congrArg₂ (· + ·) rfl (Finset.sum_congr rfl fun i _ => ?_)
  rw [mulf_apply, gateVecOfNeg_apply]

theorem w3_row1 (b : Fin 16384) (j : Fin 100) :
    outOf (after ops_part3 V) (ix3 b (1 : Fin 2) j)
      = z₀ + ∑ i : Fin 10, (z₀ * Ideal.sqrt (gateOfNeg V b i j * gateOfNeg V b i j + ε₀) + η₀ * (gateOfNeg V b i j * gateOfNeg V b i j)) := by
  rw [w3_out_vec]
  refine (join_rows_one _ _ _ b j).trans ?_
  refine (keepdims_mid_apply _ _ b j).trans ?_
  refine (host_sum_mid _ _ _ _ (by decide) b j).trans ?_
  refine congrArg₂ (· + ·) rfl (Finset.sum_congr rfl fun i _ => ?_)
  simp only [addf_apply, mulf_apply, sqrt_host_apply, splat_apply, gateVecOfNeg_apply]

/-! ## The four windows joined -/

/-- After the third window the negated sum, at (b, i, j), is minus the layer's pre-activation of cell (i, j) for batch
    row b of the padded input: taps 0 … 7, 8 … 15, tap 16 from its two pieces, taps 17 … 24, in that order from the zero word. -/
theorem neg_sum_eq (b : Fin 16384) (i : Fin 10) (j : Fin 100) :
    negOf (after ops_part2 (after ops_part1 (after ops_part0 V))) (ix3 b i j)
      = -(preact z₀ (planeOf (paddedOf (xOf V)) b) (wOf V) i j) := by
  rw [w2_neg, w1_sum, w0_sum, w1_piece_x, w1_piece_w, w1_pad, w1_arg1, w0_arg1, w0_pad]
  rw [slice_plane_apply _ 3 1 _ b i j (by have := i.isLt; omega) (by have := j.isLt; omega),
    host_weight_apply (wOf V) 3 1 _ _ _ _ b i j]
  rfl

/-- So the gate the fourth window computes is the layer's gate. -/
theorem gate_eq (b : Fin 16384) (i : Fin 10) (j : Fin 100) :
    gateOfNeg (after ops_part2 (after ops_part1 (after ops_part0 V))) b i j = gate z₀ (planeOf (paddedOf (xOf V)) b) (wOf V) i j := by
  show Ideal.div one₀ (one₀ + Ideal.exp (negOf (after ops_part2 (after ops_part1 (after ops_part0 V))) (ix3 b i j))) = _
  rw [neg_sum_eq, show (one₀ : EReal) = 1 from Ideal.ofBits_one_f32]
  rfl

/-- THE RESULT at (b, r, j): the layer's row value of batch row b, of the padded input, the input and the weights. -/
theorem result_apply (b : Fin 16384) (r : Fin 2) (j : Fin 100) :
    outOf (after ops V) (ix3 b r j) = rowOf (planeOf (paddedOf (xOf V)) b) (fun i j => xOf V (ix3 b i j)) (wOf V) r j := by
  rw [after_ops]
  match r with
  | ⟨0, _⟩ =>
    rw [rowOf, if_pos rfl]
    refine (w3_row0 _ b j).trans ?_
    refine ((congrArg (· + _) Ideal.ofBits_zero_f32).trans (zero_add _)).trans ?_
    refine Finset.sum_congr rfl fun i _ => ?_
    rw [gate_eq, w2_arg0, w1_arg0, w0_arg0]
  | ⟨1, _⟩ =>
    rw [rowOf, if_neg (by show ¬ (1 : ℕ) = 0; decide)]
    refine (w3_row1 _ b j).trans ?_
    refine ((congrArg (· + _) Ideal.ofBits_zero_f32).trans (zero_add _)).trans ?_
    refine Finset.sum_congr rfl fun i _ => ?_
    rw [gate_eq]

/-- … so the result array is the layer's result. -/
theorem result_eq : outOf (after ops V) = resultOf (paddedOf (xOf V)) (xOf V) (wOf V) := by
  funext y
  obtain ⟨b, r, j, rfl⟩ : ∃ (b : Fin 16384) (r : Fin 2) (j : Fin 100), y = ix3 b r j := ⟨y 0, y 1, y 2, eq_ix3 y⟩
  exact result_apply V b r j

theorem kept_arg0 : xOf (after ops V) = xOf V := by
  rw [after_ops, w3_arg0, w2_arg0, w1_arg0, w0_arg0]
theorem kept_arg1 : wOf (after ops V) = wOf V := by
  rw [after_ops, w3_arg1, w2_arg1, w1_arg1, w0_arg1]

/-- The reference's run: it ends with the result at the layer's result of the padded input, the input and the weights,
    the arguments unchanged. -/
theorem run (m : (ℓ : Loc nD τ sig) → Buf (Elt Ideal) ℓ) (ρ : Dev nD → PrngReg) :
    θ_run defs (onTc (τ := τ) (main (F := Ideal))) ⟨m, fun _ => 0, ρ⟩ fun r => ∀ c : Dev nD,
      r.2.mem ((c.tc : Thread nD τ).loc main_v198)
          = resultOf (paddedOf (m ((c.tc : Thread nD τ).loc main_arg0))) (m ((c.tc : Thread nD τ).loc main_arg0)) (m ((c.tc : Thread nD τ).loc main_arg1))
      ∧ r.2.mem ((c.tc : Thread nD τ).loc main_arg0) = m ((c.tc : Thread nD τ).loc main_arg0)
      ∧ r.2.mem ((c.tc : Thread nD τ).loc main_arg1) = m ((c.tc : Thread nD τ).loc main_arg1) :=
  (θ_run defs _ _).mono (fun r h c => ⟨(h c main_v198).trans (result_eq (launchContents m c)),
      (h c main_arg0).trans (kept_arg0 (launchContents m c)),
      (h c main_arg1).trans (kept_arg1 (launchContents m c))⟩)
    (RunByWindows.run m ρ)

end Cert.ReferenceIdeal.RefValue

end
-- ==== Proof.lean ====
/-
  A locally connected 5 × 5 layer with a sigmoid gate, its forecast and its ridge penalty: the Pallas kernel against jnp.

  Both programs pad the input x [16384, 10, 100] by two zeros on each side of its last two axes. For every batch row b
  and output cell (i, j) they add the 25 taps xpad (b, i + di, j + dj) · w (i, j, di, dj) in row-major tap order onto a
  zero, take the logistic — the kernel by the logistic operation, jnp by 1 / (1 + exp (−·)), one function on the
  extended reals —, and return per (b, j) the sum over i of x (b, i, j) · gate (row 0) and the sum over i of
  0 · sqrt (gate² + ε) + η · gate² (row 1), ε and η the same two float words on both sides. The kernel does this for
  eight blocks of 2048 batch rows and reads x back out of the padded block, two in from its edges; jnp does it on
  the whole arrays and joins the two rows. Index by index the two results are one function of x and w; no step uses
  that the inputs are finite.

  Proof/LocalGate.lean: the layer for one batch row, and how the pieces of a tap, the pad, the middle-axis sums and
  the row join read at an index. Proof/KernelBlock.lean: the block a grid point writes and, from the blocks, the
  kernel's result array. Proof/RefRun.lean, Proof/RefValue.lean: the reference's run and its result array.
  The frames of the two kernel programs are the generated ones; the reference's frame is its run with the result dropped;
  the ideal pass rewrote nothing.
-/
import proofs.«117507_j16501264351338_1_alg».proof.Defs
import proofs.«117507_j16501264351338_1_alg».proof.Proof.Gen.Kernel
import proofs.«117507_j16501264351338_1_alg».proof.Proof.Gen.Kernel.Frame
import proofs.«117507_j16501264351338_1_alg».proof.Proof.Gen.KernelIdeal
import proofs.«117507_j16501264351338_1_alg».proof.Proof.Gen.KernelIdeal.Frame
import proofs.«117507_j16501264351338_1_alg».proof.Proof.Gen.ReferenceIdeal
import proofs.«117507_j16501264351338_1_alg».proof.Proof.Gen.Pre_finite_inputs
import proofs.«117507_j16501264351338_1_alg».proof.Proof.KernelBlock
import proofs.«117507_j16501264351338_1_alg».proof.Proof.RefValue
import Idealize.ShloMosaic.Adequacy
import Idealize.ShloMosaic.Init

noncomputable section

namespace Cert.Proof

open Idealize.ShloMosaic Idealize.SL.Sem

theorem frame_kernel : Cert.frame_Kernel := fun m ρ _ => Cert.Kernel.Gen.frame m ρ

theorem frame_kernelIdeal : Cert.frame_KernelIdeal := fun m ρ _ => Cert.KernelIdeal.Gen.frame m ρ

/-- The reference's run keeps its arguments: its frame is the run with the result dropped. -/
theorem frame_referenceIdeal : Cert.frame_ReferenceIdeal := fun m ρ _ =>
  (θ_run Cert.ReferenceIdeal.defs _ _).mono (fun _ h c => (h c).2) (Cert.ReferenceIdeal.RefValue.run m ρ)

/-- Both runs end with the result at the layer's result of the padded input, the input and the weights; from
    arguments that agree these are one array. -/
theorem algebraic : Cert.algebraic_KernelIdeal_ReferenceIdeal := by
  intro m ρ m' ρ' _ hagree
  refine ⟨_, Cert.KernelIdeal.Whole.run m ρ, ?_⟩
  refine (θ_run Cert.ReferenceIdeal.defs _ _).mono (fun _ h c => ⟨(h c).1.trans ?_, (h c).2⟩)
    (Cert.ReferenceIdeal.RefValue.run m' ρ')
  rw [(hagree c).1, (hagree c).2]

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, trivial, algebraic⟩

end Cert.Proof

end
